-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S100000x64 : Shape := ⟨2, ![100000, 64]⟩
abbrev S1600000 : Shape := ⟨1, ![1600000]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : FVec F S100000x64 .f32) (main_arg2 : IVec S1600000 32) (main_arg3 : IVec S1600000 32) (main_arg4 : FVec F S128x64 .f32) (main_arg5 : FVec F S128x64 .f32) (main_arg6 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x64 .f32 := Host.absf main_arg1
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S128x64 .f32 := Host.absf main_arg4
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S128x64 .f32 := Host.absf main_arg5
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg6 main_v13 main_v16
-- ==== Kernel.lean ====
abbrev S100000x128 : Shape := ⟨2, ![100000, 128]⟩
abbrev S100000x64 : Shape := ⟨2, ![100000, 64]⟩
abbrev S1600000 : Shape := ⟨1, ![1600000]⟩
abbrev S128x64 : Shape := ⟨2, ![128, 64]⟩
abbrev S64 : Shape := ⟨1, ![64]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x2 : Shape := ⟨2, ![100000, 2]⟩
abbrev S128x128 : Shape := ⟨2, ![128, 128]⟩
abbrev S5000x128 : Shape := ⟨2, ![5000, 128]⟩
abbrev S5000x2 : Shape := ⟨2, ![5000, 2]⟩
abbrev S5000x1 : Shape := ⟨2, ![5000, 1]⟩
abbrev S1600000x128 : Shape := ⟨2, ![1600000, 128]⟩
abbrev S1x64 : Shape := ⟨2, ![1, 64]⟩
abbrev S5000x64 : Shape := ⟨2, ![5000, 64]⟩

abbrev nBuf : Space → Nat
  | .hbm => 51
  | .vmem => 14
  | .smem => 0
  | _ => 0

abbrev bufTy : (tb : Table) → Fin (tcTables nBuf tb) → BufTy
  | .hbm, ⟨0, _⟩ => ⟨S100000x128, .f32⟩
  | .hbm, ⟨1, _⟩ => ⟨S100000x64, .f32⟩
  | .hbm, ⟨2, _⟩ => ⟨S1600000, .i32⟩
  | .hbm, ⟨3, _⟩ => ⟨S1600000, .i32⟩
  | .hbm, ⟨4, _⟩ => ⟨S128x64, .f32⟩
  | .hbm, ⟨5, _⟩ => ⟨S128x64, .f32⟩
  | .hbm, ⟨6, _⟩ => ⟨S64, .f32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x1, .f32⟩
  | .hbm, ⟨33, _⟩ => ⟨S100000x2, .f32⟩
  | .hbm, ⟨34, _⟩ => ⟨S128x128, .f32⟩
  | .hbm, ⟨35, _⟩ => ⟨S100000x128, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000x128, .f32⟩
  | .hbm, ⟨45, _⟩ => ⟨S_, .f32⟩
  | .hbm, ⟨46, _⟩ => ⟨S100000x128, .f32⟩
  | .hbm, ⟨47, _⟩ => ⟨S1600000x1, .i32⟩
  | .hbm, ⟨48, _⟩ => ⟨S100000x128, .f32⟩
  | .hbm, ⟨49, _⟩ => ⟨S1x64, .f32⟩
  | .hbm, ⟨50, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x2, .f32⟩
  | .local _ .vmem, ⟨4, _⟩ => ⟨S5000x2, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x2, .f32⟩
  | .local _ .vmem, ⟨10, _⟩ => ⟨S5000x2, .f32⟩
  | .local _ .vmem, ⟨11, _⟩ => ⟨S1x64, .f32⟩
  | .local _ .vmem, ⟨12, _⟩ => ⟨S5000x64, .f32⟩
  | .local _ .vmem, ⟨13, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_call0_v0 : Ref sig .tc := ⟨.hbm, 18, rfl⟩
abbrev main_call0_v1 : Ref sig .tc := ⟨.hbm, 19, rfl⟩
abbrev main_v7 : Ref sig .tc := ⟨.hbm, 20, rfl⟩
abbrev main_cst_3 : Ref sig .tc := ⟨.hbm, 21, rfl⟩
abbrev main_v8 : Ref sig .tc := ⟨.hbm, 22, rfl⟩
abbrev main_v9 : Ref sig .tc := ⟨.hbm, 23, rfl⟩
abbrev main_cst_4 : Ref sig .tc := ⟨.hbm, 24, rfl⟩
abbrev main_call1_v0 : Ref sig .tc := ⟨.hbm, 25, rfl⟩
abbrev main_call1_v1 : Ref sig .tc := ⟨.hbm, 26, rfl⟩
abbrev main_v10 : Ref sig .tc := ⟨.hbm, 27, rfl⟩
abbrev main_cst_5 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_c : Ref sig .tc := ⟨.hbm, 36, rfl⟩
abbrev main_v18 : Ref sig .tc := ⟨.hbm, 37, rfl⟩
abbrev main_v19 : Ref sig .tc := ⟨.hbm, 38, rfl⟩
abbrev main_c_6 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_7 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x2 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  concatenates_S100000x1_S100000x1_S100000x2_d1 : Shape.Concatenates [S100000x1, S100000x1] S100000x2 1
  concatenates_S128x64_S128x64_S128x128_d1 : Shape.Concatenates [S128x64, S128x64] S128x128 1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S5000x2_S5000x1_0_0 : ∀ a, (![0, 0] : Fin 2 → Nat) a + S5000x1.size a ≤ S5000x2.size a
  h_S5000x1 : 0 < S5000x1.numel
  shapeCasts_S5000x1_S5000x1 : S5000x1.ShapeCasts S5000x1
  inb_S5000x2_S5000x1_0_1 : ∀ a, (![0, 1] : Fin 2 → Nat) a + S5000x1.size a ≤ S5000x2.size a
  iota_S5000x128_d1_w32 : S5000x128.Iotas .tc 32 [1]
  broadcasts_S5000x1_S5000x128 : S5000x1.Broadcasts S5000x128
  bcast_S_S100000x128 : S_.BroadcastsInDim S100000x128 (![] : Fin 0 → Fin S100000x128.rank)
  shapeCasts_S64_S1x64 : S64.ShapeCasts S1x64
  inb_S5000x128_S5000x64_0_0 : ∀ a, (![0, 0] : Fin 2 → Nat) a + S5000x64.size a ≤ S5000x128.size a
  h_S5000x64 : 0 < S5000x64.numel
  shapeCasts_S5000x64_S5000x64 : S5000x64.ShapeCasts S5000x64
  inb_S5000x128_S5000x64_0_64 : ∀ a, (![0, 64] : Fin 2 → Nat) a + S5000x64.size a ≤ S5000x128.size a
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S5000x1_S5000x64 : S5000x1.Broadcasts S5000x64
  broadcasts_S1x64_S5000x64 : S1x64.Broadcasts S5000x64
  inb_S5000x64_S5000x64_0_0 : ∀ a, (![0, 0] : Fin 2 → Nat) a + S5000x64.size a ≤ S5000x64.size a
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x2.size a ≤ S100000x2.size a
  hwx0_2 : ∀ i : grid0.Coords, EltTy.bits .f32 = 32 ∨ (Rect.block (s := S100000x2) S5000x2.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x2.size a ≤ S100000x2.size a
  hwx1_1 : ∀ i : grid1.Coords, EltTy.bits .f32 = 32 ∨ (Rect.block (s := S100000x2) S5000x2.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x2.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v27) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x2.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x128 : Shape := ⟨2, ![100000, 128]⟩
abbrev S100000x64 : Shape := ⟨2, ![100000, 64]⟩
abbrev S1600000 : Shape := ⟨1, ![1600000]⟩
abbrev S128x64 : Shape := ⟨2, ![128, 64]⟩
abbrev S64 : Shape := ⟨1, ![64]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x64 : Shape := ⟨2, ![1600000, 64]⟩
abbrev S1x64 : Shape := ⟨2, ![1, 64]⟩

abbrev nBuf : Space → Nat
  | .hbm => 78
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000x64, .f32⟩
  | .hbm, ⟨2, _⟩ => ⟨S1600000, .i32⟩
  | .hbm, ⟨3, _⟩ => ⟨S1600000, .i32⟩
  | .hbm, ⟨4, _⟩ => ⟨S128x64, .f32⟩
  | .hbm, ⟨5, _⟩ => ⟨S128x64, .f32⟩
  | .hbm, ⟨6, _⟩ => ⟨S64, .f32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x64, .f32⟩
  | .hbm, ⟨32, _⟩ => ⟨S100000x1, .f32⟩
  | .hbm, ⟨33, _⟩ => ⟨S100000x64, .f32⟩
  | .hbm, ⟨34, _⟩ => ⟨S100000x64, .f32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1600000x64, .f32⟩
  | .hbm, ⟨44, _⟩ => ⟨S_, .f32⟩
  | .hbm, ⟨45, _⟩ => ⟨S100000x64, .f32⟩
  | .hbm, ⟨46, _⟩ => ⟨S1600000x1, .i32⟩
  | .hbm, ⟨47, _⟩ => ⟨S100000x64, .f32⟩
  | .hbm, ⟨48, _⟩ => ⟨S100000x1, .f32⟩
  | .hbm, ⟨49, _⟩ => ⟨S100000x64, .f32⟩
  | .hbm, ⟨50, _⟩ => ⟨S100000x64, .f32⟩
  | .hbm, ⟨51, _⟩ => ⟨S100000x64, .f32⟩
  | .hbm, ⟨52, _⟩ => ⟨S100000x1, .f32⟩
  | .hbm, ⟨53, _⟩ => ⟨S100000x64, .f32⟩
  | .hbm, ⟨54, _⟩ => ⟨S100000x64, .f32⟩
  | .hbm, ⟨55, _⟩ => ⟨S_, .i32⟩
  | .hbm, ⟨56, _⟩ => ⟨S1600000, .i32⟩
  | .hbm, ⟨57, _⟩ => ⟨S1600000, .i1⟩
  | .hbm, ⟨58, _⟩ => ⟨S_, .i32⟩
  | .hbm, ⟨59, _⟩ => ⟨S1600000, .i32⟩
  | .hbm, ⟨60, _⟩ => ⟨S1600000, .i32⟩
  | .hbm, ⟨61, _⟩ => ⟨S1600000, .i32⟩
  | .hbm, ⟨62, _⟩ => ⟨S1600000x1, .i32⟩
  | .hbm, ⟨63, _⟩ => ⟨S1600000x64, .f32⟩
  | .hbm, ⟨64, _⟩ => ⟨S_, .f32⟩
  | .hbm, ⟨65, _⟩ => ⟨S100000x64, .f32⟩
  | .hbm, ⟨66, _⟩ => ⟨S1600000x1, .i32⟩
  | .hbm, ⟨67, _⟩ => ⟨S100000x64, .f32⟩
  | .hbm, ⟨68, _⟩ => ⟨S100000x1, .f32⟩
  | .hbm, ⟨69, _⟩ => ⟨S100000x64, .f32⟩
  | .hbm, ⟨70, _⟩ => ⟨S100000x64, .f32⟩
  | .hbm, ⟨71, _⟩ => ⟨S1x64, .f32⟩
  | .hbm, ⟨72, _⟩ => ⟨S100000x64, .f32⟩
  | .hbm, ⟨73, _⟩ => ⟨S100000x64, .f32⟩
  | .hbm, ⟨74, _⟩ => ⟨S100000x64, .f32⟩
  | .hbm, ⟨75, _⟩ => ⟨S_, .f32⟩
  | .hbm, ⟨76, _⟩ => ⟨S100000x64, .f32⟩
  | .hbm, ⟨77, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_call0_v0 : Ref sig .tc := ⟨.hbm, 18, rfl⟩
abbrev main_call0_v1 : Ref sig .tc := ⟨.hbm, 19, rfl⟩
abbrev main_v7 : Ref sig .tc := ⟨.hbm, 20, rfl⟩
abbrev main_cst_3 : Ref sig .tc := ⟨.hbm, 21, rfl⟩
abbrev main_v8 : Ref sig .tc := ⟨.hbm, 22, rfl⟩
abbrev main_v9 : Ref sig .tc := ⟨.hbm, 23, rfl⟩
abbrev main_cst_4 : Ref sig .tc := ⟨.hbm, 24, rfl⟩
abbrev main_call1_v0 : Ref sig .tc := ⟨.hbm, 25, rfl⟩
abbrev main_call1_v1 : Ref sig .tc := ⟨.hbm, 26, rfl⟩
abbrev main_v10 : Ref sig .tc := ⟨.hbm, 27, rfl⟩
abbrev main_cst_5 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_c : Ref sig .tc := ⟨.hbm, 35, rfl⟩
abbrev main_v17 : Ref sig .tc := ⟨.hbm, 36, rfl⟩
abbrev main_v18 : Ref sig .tc := ⟨.hbm, 37, rfl⟩
abbrev main_c_6 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_7 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_c_8 : Ref sig .tc := ⟨.hbm, 55, rfl⟩
abbrev main_v34 : Ref sig .tc := ⟨.hbm, 56, rfl⟩
abbrev main_v35 : Ref sig .tc := ⟨.hbm, 57, rfl⟩
abbrev main_c_9 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_10 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_call2_cst : Ref sig .tc := ⟨.hbm, 75, rfl⟩
abbrev main_call2_v0 : Ref sig .tc := ⟨.hbm, 76, rfl⟩
abbrev main_v51 : Ref sig .tc := ⟨.hbm, 77, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.Spec.lean ====
/-
  THE SPECIFICATION: a degree-normalised graph convolution with a residual path, over the extended reals.

  A graph has 100000 nodes and 1600000 edges; edge e runs from the node its source word names to the node its
  destination word names.  A node's in-degree (out-degree) counts the edges whose destination (source) word, read as a
  signed integer, is that node; its norm is max(1, degree)^(-1/2), a non-negative real.  Each node's 128 features are
  projected by two 128x64 matrices.  The residual path scales a node's first projection by its in-norm, sums it over
  the edges into each node, and scales the sum by the receiving node's in-norm; the convolution path does the same with
  the second projection and the sending node's out-norm, and adds a bias.  The result is the positive part of their sum.

  A row gathered for edge e is the row its (wrapped) source word names, read signed and clamped into [0, 99999]; an
  edge is summed into node n when its destination word, read signed, is n.

  Two arrangements are stated: the separated one (two 64-wide gathers and sums, the in-norm applied to each path) and
  the fused one (one 128-wide table [first projection x in-norm | second projection x out-norm], one gather and sum, the
  in-norm applied once to the sum of the two halves).  They agree because a non-negative real distributes over any sum of
  extended reals.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

abbrev Sx : Shape := ⟨2, ![100000, 128]⟩
abbrev Sw : Shape := ⟨2, ![128, 64]⟩
abbrev Sww : Shape := ⟨2, ![128, 128]⟩
abbrev Sn2 : Shape := ⟨2, ![100000, 2]⟩
abbrev Sb : Shape := ⟨1, ![64]⟩
abbrev Sb2 : Shape := ⟨2, ![1, 64]⟩
abbrev Scol : Shape := ⟨2, ![1600000, 1]⟩
abbrev So : Shape := ⟨2, ![100000, 64]⟩
abbrev Se : Shape := ⟨1, ![1600000]⟩

/-! ## Edge words -/

/-- A vector of edge words as a one-column array. -/
def colOf (I : Se.Idx → BitVec 32) : Scol.Idx → BitVec 32 := fun i => I (ix1 (i 0))

/-- A negative word (read signed) has 100000 added: a table index counted from the end. -/
def wrapOf (I : Se.Idx → BitVec 32) : Se.Idx → BitVec 32 :=
  select (cmpi .slt I (constantI Se 32 0#32)) (addi I (constantI Se 32 100000#32)) I

/-! ## Degrees and norms -/

/-- The number of edges whose word in the column C, read signed, is n. -/
def degAt (C : Scol.Idx → BitVec 32) (n : Fin 100000) : EReal :=
  ∑ _e ∈ Finset.univ.filter (fun e : Fin 1600000 => (C (ix2 e (0 : Fin 1))).toInt = (n.val : Int)), (1 : EReal)

/-- max(1, degree)^(-1/2). -/
def nrmAt (C : Scol.Idx → BitVec 32) (n : Fin 100000) : EReal :=
  Ideal.pow (max 1 (degAt C n)) ((-(1 / 2) : ℝ) : EReal)

/-- A norm is a non-negative real. -/
theorem nrm_real (C : Scol.Idx → BitVec 32) (n : Fin 100000) : ∃ r : ℝ, 0 ≤ r ∧ nrmAt C n = (r : EReal) := by
  unfold nrmAt degAt
  rw [Finset.sum_const, nsmul_one]
  generalize (Finset.univ.filter (fun e : Fin 1600000 => (C (ix2 e (0 : Fin 1))).toInt = (n.val : Int))).card = k
  have h1 : (max (1 : EReal) ((k : ℕ) : EReal)) = ((max (1 : ℝ) (k : ℝ) : ℝ) : EReal) := by
    rw [EReal.coe_strictMono.monotone.map_max]; rfl
  rw [h1]
  refine ⟨Real.rpow (max 1 (k : ℝ)) (-(1 / 2)), Real.rpow_nonneg (le_trans zero_le_one (le_max_left _ _)) _, rfl⟩

/-! ## Rows, projections, sums over edges -/

/-- The table row edge e reads: its word in the column J, read signed and clamped into [0, 99999]. -/
def rowOf (J : Scol.Idx → BitVec 32) (e : Fin 1600000) : Fin 100000 :=
  ⟨min (J (ix2 e (0 : Fin 1))).toInt.toNat (100000 - 1), by omega⟩

/-- Entry (r, j) of features x weights. -/
def proj (X : Sx.Idx → EReal) (W : Sw.Idx → EReal) (r : Fin 100000) (j : Fin 64) : EReal :=
  ∑ k : Fin 128, X (ix2 r k) * W (ix2 k j)

/-- The sum, over the edges into node n (destination column D), of f at the row the edge reads (column J). -/
def agg (D J : Scol.Idx → BitVec 32) (f : Fin 100000 → EReal) (n : Fin 100000) : EReal :=
  ∑ e ∈ Finset.univ.filter (fun e : Fin 1600000 => (D (ix2 e (0 : Fin 1))).toInt = (n.val : Int)), f (rowOf J e)

/-- The residual path's sum at (n, j): first projection times the sender's in-norm, over the edges into n. -/
def aggR (X : Sx.Idx → EReal) (J D : Scol.Idx → BitVec 32) (Wr : Sw.Idx → EReal) (n : Fin 100000) (j : Fin 64) : EReal :=
  agg D J (fun r => proj X Wr r j * nrmAt D r) n

/-- The convolution path's sum at (n, j): second projection times the sender's out-norm, over the edges into n. -/
def aggH (X : Sx.Idx → EReal) (J S D : Scol.Idx → BitVec 32) (Wc : Sw.Idx → EReal) (n : Fin 100000) (j : Fin 64) : EReal :=
  agg D J (fun r => proj X Wc r j * nrmAt S r) n

/-! ## The two arrangements -/

/-- The fused arrangement at (n, j): the in-norm times the sum of the two paths, plus the bias, positive part. -/
def specAt (X : Sx.Idx → EReal) (J S D : Scol.Idx → BitVec 32) (Wr Wc : Sw.Idx → EReal) (b : Sb.Idx → EReal)
    (n : Fin 100000) (j : Fin 64) : EReal :=
  max (nrmAt D n * (aggR X J D Wr n j + aggH X J S D Wc n j) + b (ix1 j)) 0

/-- The result array, fused arrangement. -/
def specOut (X : Sx.Idx → EReal) (J S D : Scol.Idx → BitVec 32) (Wr Wc : Sw.Idx → EReal) (b : Sb.Idx → EReal) :
    So.Idx → EReal :=
  fun i => specAt X J S D Wr Wc b (i 0) (i 1)

/-- The separated arrangement at (n, j): (convolution sum x in-norm + bias) + residual sum x in-norm, positive part. -/
def refAt (X : Sx.Idx → EReal) (J S D : Scol.Idx → BitVec 32) (Wr Wc : Sw.Idx → EReal) (b : Sb.Idx → EReal)
    (n : Fin 100000) (j : Fin 64) : EReal :=
  max ((aggH X J S D Wc n j * nrmAt D n + b (ix1 j)) + aggR X J D Wr n j * nrmAt D n) 0

/-- The result array, separated arrangement. -/
def refOut (X : Sx.Idx → EReal) (J S D : Scol.Idx → BitVec 32) (Wr Wc : Sw.Idx → EReal) (b : Sb.Idx → EReal) :
    So.Idx → EReal :=
  fun i => refAt X J S D Wr Wc b (i 0) (i 1)

/-- A non-negative real distributes over a sum of extended reals, so the two groupings of the final sum agree. -/
theorem combine_law (x : ℝ) (hx : 0 ≤ x) (R H b : EReal) :
    (x : EReal) * (R + H) + b = (H * (x : EReal) + b) + R * (x : EReal) := by
  rw [EReal.left_distrib_of_nonneg_of_ne_top (EReal.coe_nonneg.mpr hx) (EReal.coe_ne_top x), mul_comm (x : EReal) R,
    mul_comm (x : EReal) H]
  rw [add_comm (R * (x : EReal)) (H * (x : EReal)), add_assoc, add_comm (R * (x : EReal)) b, ← add_assoc]

/-- The two arrangements are one function. -/
theorem refOut_eq_specOut (X : Sx.Idx → EReal) (J S D : Scol.Idx → BitVec 32) (Wr Wc : Sw.Idx → EReal) (b : Sb.Idx → EReal) :
    refOut X J S D Wr Wc b = specOut X J S D Wr Wc b := by
  funext i
  unfold refOut specOut refAt specAt
  obtain ⟨r, hr, hn⟩ := nrm_real D (i 0)
  rw [hn, combine_law r hr]

/-! ## The fused arrangement's intermediate arrays -/

/-- The two weight matrices side by side: columns 0..63 the first, 64..127 the second. -/
def catW (Wr Wc : Sw.Idx → EReal) : Sww.Idx → EReal :=
  fun i => if h : (i 1).val < 64 then Wr (ix2 (i 0) ⟨(i 1).val, h⟩) else Wc (ix2 (i 0) ⟨(i 1).val - 64, by have h128 : (i 1).val < 128 := (i 1).isLt; omega⟩)

/-- The two norms side by side: column 0 the in-norm, column 1 the out-norm. -/
def nrm2 (S D : Scol.Idx → BitVec 32) : Sn2.Idx → EReal :=
  fun i => if (i 1).val = 0 then nrmAt D (i 0) else nrmAt S (i 0)

/-- The fused table: features x [first | second] weights, columns below 64 scaled by norm column 0, the others by 1. -/
def proj0 (X : Sx.Idx → EReal) (W2 : Sww.Idx → EReal) (Nm : Sn2.Idx → EReal) : Sx.Idx → EReal :=
  fun i => (∑ k : Fin 128, X (ix2 (i 0) k) * W2 (ix2 k (i 1)))
    * (if (i 1).val < 64 then Nm (ix2 (i 0) (0 : Fin 2)) else Nm (ix2 (i 0) (1 : Fin 2)))

/-- The fused table's rows summed over the edges into each node. -/
def aggRows (D J : Scol.Idx → BitVec 32) (C : Sx.Idx → EReal) : Sx.Idx → EReal :=
  fun i => agg D J (fun r => C (ix2 r (i 1))) (i 0)

/-- The closing step: norm column 0 times (left half + right half), plus the bias row, positive part. -/
def comb1 (C : Sx.Idx → EReal) (Nm : Sn2.Idx → EReal) (B : Sb2.Idx → EReal) : So.Idx → EReal :=
  fun i => max (Nm (ix2 (i 0) (0 : Fin 2))
      * (C (ix2 (i 0) ⟨(i 1).val, by have h64 : (i 1).val < 64 := (i 1).isLt; omega⟩) + C (ix2 (i 0) ⟨64 + (i 1).val, by have h64 : (i 1).val < 64 := (i 1).isLt; omega⟩))
    + B (ix2 (0 : Fin 1) (i 1))) 0

/-- The bias as a one-row array. -/
def rowB (b : Sb.Idx → EReal) : Sb2.Idx → EReal := fun i => b (ix1 (i 1))

/-- A left-half column of the fused table is the first projection scaled by the in-norm. -/
theorem proj0_left (X : Sx.Idx → EReal) (S D : Scol.Idx → BitVec 32) (Wr Wc : Sw.Idx → EReal) (r : Fin 100000) (j : Fin 64)
    (hj : j.val < 128) :
    proj0 X (catW Wr Wc) (nrm2 S D) (ix2 r (⟨j.val, hj⟩ : Fin 128)) = proj X Wr r j * nrmAt D r := by
  have hlt : j.val < 64 := j.isLt
  show (∑ k : Fin 128, X (ix2 r k) * catW Wr Wc (ix2 k (⟨j.val, hj⟩ : Fin 128)))
      * (if j.val < 64 then nrm2 S D (ix2 r (0 : Fin 2)) else nrm2 S D (ix2 r (1 : Fin 2))) = _
  rw [if_pos hlt]
  have hn : nrm2 S D (ix2 r (0 : Fin 2)) = nrmAt D r := if_pos rfl
  rw [hn]
  unfold proj
  refine congrArg (· * nrmAt D r) ?_
  refine Finset.sum_congr rfl fun k _ => ?_
  refine congrArg (X (ix2 r k) * ·) ?_
  show (if h : j.val < 64 then Wr (ix2 k ⟨j.val, h⟩) else _) = _
  rw [dif_pos hlt]

/-- A right-half column of the fused table is the second projection scaled by the out-norm. -/
theorem proj0_right (X : Sx.Idx → EReal) (S D : Scol.Idx → BitVec 32) (Wr Wc : Sw.Idx → EReal) (r : Fin 100000) (j : Fin 64)
    (hj : 64 + j.val < 128) :
    proj0 X (catW Wr Wc) (nrm2 S D) (ix2 r (⟨64 + j.val, hj⟩ : Fin 128)) = proj X Wc r j * nrmAt S r := by
  have hge : ¬ (64 + j.val < 64) := by omega
  show (∑ k : Fin 128, X (ix2 r k) * catW Wr Wc (ix2 k (⟨64 + j.val, hj⟩ : Fin 128)))
      * (if 64 + j.val < 64 then nrm2 S D (ix2 r (0 : Fin 2)) else nrm2 S D (ix2 r (1 : Fin 2))) = _
  rw [if_neg hge]
  have hn : nrm2 S D (ix2 r (1 : Fin 2)) = nrmAt S r := if_neg (show ¬ ((1 : Fin 2).val = 0) from by decide)
  rw [hn]
  unfold proj
  refine congrArg (· * nrmAt S r) ?_
  refine Finset.sum_congr rfl fun k _ => ?_
  refine congrArg (X (ix2 r k) * ·) ?_
  show (if h : 64 + j.val < 64 then _ else Wc (ix2 k ⟨64 + j.val - 64, _⟩)) = _
  rw [dif_neg hge]
  have hj' : (⟨64 + j.val - 64, by omega⟩ : Fin 64) = j := Fin.ext (by show 64 + j.val - 64 = j.val; omega)
  rw [hj']

/-- The fused pipeline computes the fused arrangement. -/
theorem fused_eq_specOut (X : Sx.Idx → EReal) (J S D : Scol.Idx → BitVec 32) (Wr Wc : Sw.Idx → EReal) (b : Sb.Idx → EReal) :
    comb1 (aggRows D J (proj0 X (catW Wr Wc) (nrm2 S D))) (nrm2 S D) (rowB b) = specOut X J S D Wr Wc b := by
  funext i
  obtain ⟨n, j, rfl⟩ : ∃ (n : Fin 100000) (j : Fin 64), i = ix2 n j := ⟨i 0, i 1, eq_ix2 i⟩
  have h1 : j.val < 128 := by have := j.isLt; omega
  have h2 : 64 + j.val < 128 := by have := j.isLt; omega
  show max (nrm2 S D (ix2 n (0 : Fin 2))
      * (agg D J (fun r => proj0 X (catW Wr Wc) (nrm2 S D) (ix2 r (⟨j.val, h1⟩ : Fin 128))) n
        + agg D J (fun r => proj0 X (catW Wr Wc) (nrm2 S D) (ix2 r (⟨64 + j.val, h2⟩ : Fin 128))) n)
      + b (ix1 j)) 0
    = max (nrmAt D n * (agg D J (fun r => proj X Wr r j * nrmAt D r) n + agg D J (fun r => proj X Wc r j * nrmAt S r) n)
      + b (ix1 j)) 0
  have hn : nrm2 S D (ix2 n (0 : Fin 2)) = nrmAt D n := if_pos rfl
  rw [hn]
  simp only [proj0_left X S D Wr Wc _ j h1, proj0_right X S D Wr Wc _ j h2]

end Cert.Spec

end
-- ==== Proof.Body.lean ====
import proofs.«126455_j4011499454859_1_alg».proof.Proof.Gen.KernelIdeal.Frame
import proofs.«126455_j4011499454859_1_alg».proof.Proof.Spec
import Idealize.ShloMosaic.Lib.ValueIdx
import Idealize.ShloMosaic.Lib.Pipeline.Value
import Idealize.ShloMosaic.Lib.ValueLayout
import Idealize.ShloMosaic.Lib.StableHlo.Predicate
import Idealize.ShloMosaic.PureOps.Ideal.Laws

noncomputable section

open scoped BigOperators

namespace Cert.Fused

open Idealize.ShloMosaic Idealize.ShloMosaic.ValueIdx Cert.KernelIdeal Cert.KernelIdeal.Gen

/-- The offsets (0, 0), however spelt, are the zero offsets. -/
theorem body_hz2 : (![0, 0] : Fin 2 → Nat) = fun _ => 0 := funext fun a => by fin_cases a <;> rfl

/-- A column [a, 1] broadcast to [a, b] reads, at (p, c), the column's entry of row p. -/
theorem body_broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Column 0 of a [5000, 2] block, loaded as a [5000, 1] column, read at row p. -/
theorem body_ld_col0 (x : Vec Ideal S5000x2 .f32) (p : Fin 5000) (z : Fin 1) :
    View.ld x r0_2 (ix2 p z) = x (ix2 p (0 : Fin 2)) := by
  refine congrArg x (Shape.idx_ext₂ ?_ ?_)
  · show 0 + 1 * p.val = p.val
    omega
  · have hz := z.isLt
    show 0 + 1 * z.val = 0
    omega

/-- Column 1 of a [5000, 2] block, loaded as a [5000, 1] column, read at row p. -/
theorem body_ld_col1 (x : Vec Ideal S5000x2 .f32) (p : Fin 5000) (z : Fin 1) :
    View.ld x r0_3 (ix2 p z) = x (ix2 p (1 : Fin 2)) := by
  refine congrArg x (Shape.idx_ext₂ ?_ ?_)
  · show 0 + 1 * p.val = p.val
    omega
  · have hz := z.isLt
    show 1 + 1 * z.val = 1
    omega

/-- The left half (columns 0..63) of a [5000, 128] block read at (p, q). -/
theorem body_ld_left (x : Vec Ideal S5000x128 .f32) (p : Fin 5000) (q : Fin 64) :
    View.ld x r1_0 (ix2 p q) = x (ix2 p (⟨q.val, by omega⟩ : Fin 128)) := by
  refine congrArg x (Shape.idx_ext₂ ?_ ?_)
  · show 0 + 1 * p.val = p.val
    omega
  · show 0 + 1 * q.val = q.val
    omega

/-- The right half (columns 64..127) of a [5000, 128] block read at (p, q). -/
theorem body_ld_right (x : Vec Ideal S5000x128 .f32) (p : Fin 5000) (q : Fin 64) :
    View.ld x r1_1 (ix2 p q) = x (ix2 p (⟨64 + q.val, by omega⟩ : Fin 128)) := by
  refine congrArg x (Shape.idx_ext₂ ?_ ?_)
  · show 0 + 1 * p.val = p.val
    omega
  · show 64 + 1 * q.val = 64 + q.val
    omega

/-! ## The product's operand indices, axis by axis -/

theorem body_lhs_mm_0 (i : S5000x128.Idx) (c : dot_S5000x128_S128x128_S5000x128_1_0_0_1_n_n.contr.Idx) :
    (dot_S5000x128_S128x128_S5000x128_1_0_0_1_n_n.lhsIdx i c 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem body_lhs_mm_1 (i : S5000x128.Idx) (c : dot_S5000x128_S128x128_S5000x128_1_0_0_1_n_n.contr.Idx) :
    (dot_S5000x128_S128x128_S5000x128_1_0_0_1_n_n.lhsIdx i c 1).val = (c ⟨0, by decide⟩).val :=
  dot_S5000x128_S128x128_S5000x128_1_0_0_1_n_n.lhsIdx_val_of_single rfl i c
theorem body_rhs_mm_0 (i : S5000x128.Idx) (c : dot_S5000x128_S128x128_S5000x128_1_0_0_1_n_n.contr.Idx) :
    (dot_S5000x128_S128x128_S5000x128_1_0_0_1_n_n.rhsIdx i c 0).val = (c ⟨0, by decide⟩).val :=
  dot_S5000x128_S128x128_S5000x128_1_0_0_1_n_n.rhsIdx_val_of_single rfl i c
theorem body_rhs_mm_1 (i : S5000x128.Idx) (c : dot_S5000x128_S128x128_S5000x128_1_0_0_1_n_n.contr.Idx) :
    (dot_S5000x128_S128x128_S5000x128_1_0_0_1_n_n.rhsIdx i c 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The block product into a zero accumulator, read at (p, q): the exact sum over the contracted index of the operands'
    products (no rounding at the extended reals). -/
theorem body_mm_apply (A : FVec Ideal S5000x128 .bf16) (B : FVec Ideal S128x128 .bf16) (p : Fin 5000) (q : Fin 128) :
    matmul dot_S5000x128_S128x128_S5000x128_1_0_0_1_n_n none A B (constant (F := Ideal) S5000x128 .f32 0x00000000#32) (ix2 p q)
      = ∑ k : Fin 128, A (ix2 p k) * B (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact body_lhs_mm_0 _ _
    | ⟨1, _⟩ => exact (body_lhs_mm_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (body_rhs_mm_0 _ _).trans hk
    | ⟨1, _⟩ => exact body_rhs_mm_1 _ _)
  rw [el, er]

/-! ## The lane mask -/

/-- The lane index along axis 1 compared (signed) against 64 selects its first operand exactly on lanes q < 64: lane
    indices are below 128, so the signed comparison of the 32-bit words is the comparison of the numbers. -/
theorem body_sel_lt64 {α : Type} (p : Fin 5000) (q : Fin 128) (a b : α) :
    Scalar.select (cmpi CmpIPredicate.slt (iota Kind.tc S5000x128 32 [1] iota_S5000x128_d1_w32)
        (broadcast S5000x128 64#32) (ix2 p q)) a b
      = if q.val < 64 then a else b := by
  have hi : iota Kind.tc S5000x128 32 [1] iota_S5000x128_d1_w32 (ix2 p q) = BitVec.ofNat 32 q.val :=
    iota_single_apply .tc S5000x128 32 1 iota_S5000x128_d1_w32 (ix2 p q)
  show Scalar.select (IntOp.cmpi .slt (iota Kind.tc S5000x128 32 [1] iota_S5000x128_d1_w32 (ix2 p q)) 64#32) a b = _
  rw [hi]
  have hq := q.isLt
  have hn : (BitVec.ofNat 32 q.val).toNat = q.val := by
    rw [BitVec.toNat_ofNat]; exact Nat.mod_eq_of_lt (by omega)
  have hc : IntOp.cmpi .slt (BitVec.ofNat 32 q.val) 64#32 = 1#1 ↔ q.val < 64 := by
    rw [StableHlo.Predicate.slt_iff_toNat (by rw [hn]; omega) (by decide), hn]
    rfl
  by_cases h : q.val < 64
  · rw [hc.mpr h, select_one, if_pos h]
  · rw [eq_zero_of_ne_one (mt hc.mp h), select_zero, if_neg h]

/-- The projection kernel's stored block at (p, q): row p of the feature block times column q of the weights, scaled by
    the block's norm column 0 when q < 64 and by column 1 otherwise. -/
theorem out0_3_apply (x0 : Vec Ideal S5000x128 .f32) (x1 : Vec Ideal S128x128 .f32) (x2 : Vec Ideal S5000x2 .f32)
    (p : Fin 5000) (q : Fin 128) :
    out0_3 (F := Ideal) x0 x1 x2 (ix2 p q)
      = (∑ k : Fin 128, x0 (ix2 p k) * x1 (ix2 k q))
        * (if q.val < 64 then x2 (ix2 p (0 : Fin 2)) else x2 (ix2 p (1 : Fin 2))) := by
  unfold out0_3
  rw [View.canon_unit_zero body_hz2]
  unfold k0_pay1
  rw [mulf_apply, select_apply]
  simp only [shapeCast_self]
  rw [body_broadcastTo_a1_ab_apply, body_broadcastTo_a1_ab_apply, body_ld_col0, body_ld_col1, body_sel_lt64, body_mm_apply,
    View.ld_unit_zero body_hz2, View.ld_unit_zero body_hz2]
  simp only [truncf_apply]

/-- The combine kernel's stored block at (p, q): norm column 0 times (left half + right half) of the summed table's block,
    plus the bias row, positive part. -/
theorem out1_3_apply (x0 : Vec Ideal S5000x128 .f32) (x1 : Vec Ideal S5000x2 .f32) (x2 : Vec Ideal S1x64 .f32)
    (p : Fin 5000) (q : Fin 64) :
    out1_3 (F := Ideal) x0 x1 x2 (ix2 p q)
      = max (x1 (ix2 p (0 : Fin 2))
          * (x0 (ix2 p (⟨q.val, by omega⟩ : Fin 128)) + x0 (ix2 p (⟨64 + q.val, by omega⟩ : Fin 128)))
        + x2 (ix2 (0 : Fin 1) q)) 0 := by
  unfold out1_3
  rw [View.canon_unit_zero body_hz2]
  unfold k1_pay1
  rw [maximumf_apply, addf_apply, mulf_apply, addf_apply, broadcast_apply]
  simp only [shapeCast_self]
  rw [body_broadcastTo_a1_ab_apply, broadcastTo_1b_ab_apply, View.ld_unit_zero body_hz2, body_ld_left, body_ld_right, body_ld_col0]
  show max _ (Ideal.ofBits .f32 0x00000000#32) = _
  rw [Ideal.ofBits_zero_f32]

end Cert.Fused

end
-- ==== Proof.Regions.lean ====
import proofs.«126455_j4011499454859_1_alg».proof.Proof.Body

noncomputable section

open scoped BigOperators

namespace Cert.Fused

open Idealize.ShloMosaic Idealize.ShloMosaic.TcCoe Idealize.ShloMosaic.ValueIdx Idealize.SL.Sem Cert.KernelIdeal Cert.KernelIdeal.Gen

/-!
  From each region's per-block result to the whole output array after the region.

  Both regions run over twenty points; point t works on rows 5000 t .. 5000 t + 4999. A block's coordinate in its array is
  always (block index) x (block size) + (coordinate inside the block), so an input block read at (p, k) is the array read
  at (5000 t + p, k) for the row-blocked windows and at (p, k) itself for the windows that hold a whole array. The block a
  point writes back is therefore the region's whole-array function restricted to the point's rows, and since row r lies in
  the block of point r / 5000 the twenty blocks cover the output array.
-/

section Blocks

variable (V : (c : Dev nD) → (b : Ref sig .tc) → Buf (Elt Ideal) ((c : Thread nD τ).loc b))

/-! ## The first region: the fused table -/

/-- The first region's index maps over its twenty points: the feature, norm and output windows take block (t, 0),
    the weight window block (0, 0). -/
theorem proj_index_maps : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The feature window's block at point t is rows 5000 t .. 5000 t + 4999 of the feature array. -/
theorem proj_feature_block (c : Dev nD) (t : Fin cfg0.N) (p : Fin 5000) (k : Fin 128) (r : Fin 100000)
    (hr : r.val = 5000 * t.val + p.val) :
    (iblk0 V c 0 t : Vec Ideal S5000x128 .f32) (ix2 p k) = (V c main_arg0 : Spec.Sx.Idx → EReal) (ix2 r k) := by
  obtain ⟨e00, e01, -⟩ := proj_index_maps t
  unfold iblk0
  rw [View.read_apply]
  show V c main_arg0 _ = V c main_arg0 _
  congr 1
  funext a; apply Fin.ext
  match a with
  | ⟨0, _⟩ => show win0_0.index t (0 : Fin 2) * 5000 + 1 * p.val = r.val; rw [e00, hr]; omega
  | ⟨1, _⟩ => show win0_0.index t (1 : Fin 2) * 128 + 1 * k.val = k.val; rw [e01]; omega

/-- The weight window's block at every point is the whole weight array. -/
theorem proj_weight_block (c : Dev nD) (t : Fin cfg0.N) (k q : Fin 128) :
    (iblk0 V c 1 t : Vec Ideal S128x128 .f32) (ix2 k q) = (V c main_v16 : Spec.Sww.Idx → EReal) (ix2 k q) := by
  obtain ⟨-, -, e10, e11, -⟩ := proj_index_maps t
  unfold iblk0
  rw [View.read_apply]
  show V c main_v16 _ = V c main_v16 _
  congr 1
  funext a; apply Fin.ext
  match a with
  | ⟨0, _⟩ => show win0_1.index t (0 : Fin 2) * 128 + 1 * k.val = k.val; rw [e10]; omega
  | ⟨1, _⟩ => show win0_1.index t (1 : Fin 2) * 128 + 1 * q.val = q.val; rw [e11]; omega

/-- The norm window's block at point t is rows 5000 t .. 5000 t + 4999 of the norm array. -/
theorem proj_norm_block (c : Dev nD) (t : Fin cfg0.N) (p : Fin 5000) (k : Fin 2) (r : Fin 100000)
    (hr : r.val = 5000 * t.val + p.val) :
    (iblk0 V c 2 t : Vec Ideal S5000x2 .f32) (ix2 p k) = (V c main_v15 : Spec.Sn2.Idx → EReal) (ix2 r k) := by
  obtain ⟨-, -, -, -, e20, e21, -⟩ := proj_index_maps t
  unfold iblk0
  rw [View.read_apply]
  show V c main_v15 _ = V c main_v15 _
  congr 1
  funext a; apply Fin.ext
  match a with
  | ⟨0, _⟩ => show win0_2.index t (0 : Fin 2) * 5000 + 1 * p.val = r.val; rw [e20, hr]; omega
  | ⟨1, _⟩ => show win0_2.index t (1 : Fin 2) * 2 + 1 * k.val = k.val; rw [e21]; omega

/-- The stored block of blocks that are rows 5000 n .. of the arrays is the fused table at those rows. -/
theorem proj_rows (X : Spec.Sx.Idx → EReal) (W : Spec.Sww.Idx → EReal) (Nm : Spec.Sn2.Idx → EReal)
    (x0 : Vec Ideal S5000x128 .f32) (x1 : Vec Ideal S128x128 .f32) (x2 : Vec Ideal S5000x2 .f32)
    (p : Fin 5000) (q : Fin 128) (r : Fin 100000)
    (h0 : ∀ k : Fin 128, x0 (ix2 p k) = X (ix2 r k))
    (h1 : ∀ k : Fin 128, x1 (ix2 k q) = W (ix2 k q))
    (h2 : ∀ k : Fin 2, x2 (ix2 p k) = Nm (ix2 r k)) :
    out0_3 (F := Ideal) x0 x1 x2 (ix2 p q) = Spec.proj0 X W Nm (ix2 r q) := by
  rw [out0_3_apply]
  unfold Spec.proj0
  simp only [h0, h1, h2]

/-- What point t of the first region writes back is block t of the fused table of the entry arrays. -/
theorem proj_written_back (c : Dev nD) (t : Fin cfg0.N) :
    (dat0 (F := Ideal) V c).flushed 3 t
      = ((cfg0.win 3).blk t).view.read (Elt Ideal) (Spec.proj0 (V c main_arg0) (V c main_v16) (V c main_v15)) := by
  show (cfg0.win 3).cut (grid0.coords t) ((dat0 V c).after 3 t) = _
  rw [after0_3]
  obtain ⟨-, -, -, -, -, -, e30, e31⟩ := proj_index_maps t
  have hN : t.val < 20 := lt_of_lt_of_eq t.isLt N_0
  funext y
  have hy0 : (y 0).val < 5000 := (y 0).isLt
  have hy1 : (y 1).val < 128 := (y 1).isLt
  have hx : (cfg0.win 3).xinj (grid0.coords t) y
      = (ix2 (⟨(y 0).val, hy0⟩ : Fin 5000) (⟨(y 1).val, hy1⟩ : Fin 128) : S5000x128.Idx) := by
    funext a
    match a with
    | ⟨0, _⟩ => rfl
    | ⟨1, _⟩ => rfl
  have hemb : ((cfg0.win 3).blk t).view.emb y
      = (ix2 (⟨5000 * t.val + (y 0).val, by omega⟩ : Fin 100000) (⟨(y 1).val, hy1⟩ : Fin 128) : Spec.Sx.Idx) := by
    funext a; apply Fin.ext
    match a with
    | ⟨0, _⟩ => show win0_3.index t (0 : Fin 2) * 5000 + 1 * (y 0).val = 5000 * t.val + (y 0).val; rw [e30]; omega
    | ⟨1, _⟩ => show win0_3.index t (1 : Fin 2) * 128 + 1 * (y 1).val = (y 1).val; rw [e31]; omega
  show out0_3 (F := Ideal) (iblk0 V c 0 t) (iblk0 V c 1 t) (iblk0 V c 2 t) ((cfg0.win 3).xinj (grid0.coords t) y)
      = Spec.proj0 (V c main_arg0) (V c main_v16) (V c main_v15) (((cfg0.win 3).blk t).view.emb y)
  rw [hx, hemb]
  exact proj_rows (V c main_arg0) (V c main_v16) (V c main_v15) (iblk0 V c 0 t) (iblk0 V c 1 t) (iblk0 V c 2 t)
    ⟨(y 0).val, hy0⟩ ⟨(y 1).val, hy1⟩ ⟨5000 * t.val + (y 0).val, by omega⟩
    (fun k => proj_feature_block V c t _ k _ rfl) (fun k => proj_weight_block V c t k _) (fun k => proj_norm_block V c t _ k _ rfl)

/-- An index of the fused table's array is in point t's block iff each coordinate is in the block's range on its axis. -/
theorem proj_mem_block (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v17).slice (win0_3.rect t)).set ↔ _
  rw [View.set_slice_whole, Rect.mem_set_unit]
  exact Iff.rfl

/-- Every index of the fused table's array is in the block of the point its row divided by 5000 names. -/
theorem proj_cover (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 20 := N_0
  obtain ⟨t, ht⟩ : ∃ t : Fin cfg0.N, t.val = (i 0).val / 5000 := ⟨⟨(i 0).val / 5000, by rw [hN]; omega⟩, rfl⟩
  obtain ⟨-, -, -, -, -, -, e30, e31⟩ := proj_index_maps t
  refine ⟨t, flush0_3 t, ?_⟩
  rw [proj_mem_block]
  intro a
  match a with
  | ⟨0, _⟩ => show win0_3.index t (0 : Fin 2) * 5000 ≤ (i 0).val ∧ (i 0).val < win0_3.index t (0 : Fin 2) * 5000 + 5000; rw [e30, ht]; omega
  | ⟨1, _⟩ => show win0_3.index t (1 : Fin 2) * 128 ≤ (i 1).val ∧ (i 1).val < win0_3.index t (1 : Fin 2) * 128 + 128; rw [e31]; omega

/-! ## The second region: the closing step -/

/-- The second region's index maps over its twenty points: the summed-table, norm and output windows take block (t, 0),
    the bias window block (0, 0). -/
theorem comb_index_maps : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The summed-table window's block at point t is rows 5000 t .. 5000 t + 4999 of the summed table. -/
theorem comb_table_block (c : Dev nD) (t : Fin cfg1.N) (p : Fin 5000) (k : Fin 128) (r : Fin 100000)
    (hr : r.val = 5000 * t.val + p.val) :
    (iblk1 V c 0 t : Vec Ideal S5000x128 .f32) (ix2 p k) = (V c main_v27 : Spec.Sx.Idx → EReal) (ix2 r k) := by
  obtain ⟨e00, e01, -⟩ := comb_index_maps t
  unfold iblk1
  rw [View.read_apply]
  show V c main_v27 _ = V c main_v27 _
  congr 1
  funext a; apply Fin.ext
  match a with
  | ⟨0, _⟩ => show win1_0.index t (0 : Fin 2) * 5000 + 1 * p.val = r.val; rw [e00, hr]; omega
  | ⟨1, _⟩ => show win1_0.index t (1 : Fin 2) * 128 + 1 * k.val = k.val; rw [e01]; omega

/-- The norm window's block at point t is rows 5000 t .. 5000 t + 4999 of the norm array. -/
theorem comb_norm_block (c : Dev nD) (t : Fin cfg1.N) (p : Fin 5000) (k : Fin 2) (r : Fin 100000)
    (hr : r.val = 5000 * t.val + p.val) :
    (iblk1 V c 1 t : Vec Ideal S5000x2 .f32) (ix2 p k) = (V c main_v15 : Spec.Sn2.Idx → EReal) (ix2 r k) := by
  obtain ⟨-, -, e10, e11, -⟩ := comb_index_maps t
  unfold iblk1
  rw [View.read_apply]
  show V c main_v15 _ = V c main_v15 _
  congr 1
  funext a; apply Fin.ext
  match a with
  | ⟨0, _⟩ => show win1_1.index t (0 : Fin 2) * 5000 + 1 * p.val = r.val; rw [e10, hr]; omega
  | ⟨1, _⟩ => show win1_1.index t (1 : Fin 2) * 2 + 1 * k.val = k.val; rw [e11]; omega

/-- The bias window's block at every point is the whole bias row. -/
theorem comb_bias_block (c : Dev nD) (t : Fin cfg1.N) (z : Fin 1) (q : Fin 64) :
    (iblk1 V c 2 t : Vec Ideal S1x64 .f32) (ix2 z q) = (V c main_v28 : Spec.Sb2.Idx → EReal) (ix2 z q) := by
  obtain ⟨-, -, -, -, e20, e21, -⟩ := comb_index_maps t
  unfold iblk1
  rw [View.read_apply]
  show V c main_v28 _ = V c main_v28 _
  congr 1
  funext a; apply Fin.ext
  match a with
  | ⟨0, _⟩ => show win1_2.index t (0 : Fin 2) * 1 + 1 * z.val = z.val; rw [e20]; omega
  | ⟨1, _⟩ => show win1_2.index t (1 : Fin 2) * 64 + 1 * q.val = q.val; rw [e21]; omega

/-- The stored block, of blocks that are row r of the arrays at block row p, is the closing step at row r. -/
theorem comb_rows (C : Spec.Sx.Idx → EReal) (Nm : Spec.Sn2.Idx → EReal) (B : Spec.Sb2.Idx → EReal)
    (x0 : Vec Ideal S5000x128 .f32) (x1 : Vec Ideal S5000x2 .f32) (x2 : Vec Ideal S1x64 .f32)
    (p : Fin 5000) (q : Fin 64) (r : Fin 100000)
    (h0 : ∀ k : Fin 128, x0 (ix2 p k) = C (ix2 r k))
    (h1 : ∀ k : Fin 2, x1 (ix2 p k) = Nm (ix2 r k))
    (h2 : x2 (ix2 (0 : Fin 1) q) = B (ix2 (0 : Fin 1) q)) :
    out1_3 (F := Ideal) x0 x1 x2 (ix2 p q) = Spec.comb1 C Nm B (ix2 r q) := by
  rw [out1_3_apply]
  unfold Spec.comb1
  simp only [h0, h1, h2]

/-- What point t of the second region writes back is block t of the closing step of the entry arrays. -/
theorem comb_written_back (c : Dev nD) (t : Fin cfg1.N) :
    (dat1 (F := Ideal) V c).flushed 3 t
      = ((cfg1.win 3).blk t).view.read (Elt Ideal) (Spec.comb1 (V c main_v27) (V c main_v15) (V c main_v28)) := by
  show (cfg1.win 3).cut (grid1.coords t) ((dat1 V c).after 3 t) = _
  rw [after1_3]
  obtain ⟨-, -, -, -, -, -, e30, e31⟩ := comb_index_maps t
  have hN : t.val < 20 := lt_of_lt_of_eq t.isLt N_1
  funext y
  have hy0 : (y 0).val < 5000 := (y 0).isLt
  have hy1 : (y 1).val < 64 := (y 1).isLt
  have hx : (cfg1.win 3).xinj (grid1.coords t) y
      = (ix2 (⟨(y 0).val, hy0⟩ : Fin 5000) (⟨(y 1).val, hy1⟩ : Fin 64) : S5000x64.Idx) := by
    funext a
    match a with
    | ⟨0, _⟩ => rfl
    | ⟨1, _⟩ => rfl
  have hemb : ((cfg1.win 3).blk t).view.emb y
      = (ix2 (⟨5000 * t.val + (y 0).val, by omega⟩ : Fin 100000) (⟨(y 1).val, hy1⟩ : Fin 64) : Spec.So.Idx) := by
    funext a; apply Fin.ext
    match a with
    | ⟨0, _⟩ => show win1_3.index t (0 : Fin 2) * 5000 + 1 * (y 0).val = 5000 * t.val + (y 0).val; rw [e30]; omega
    | ⟨1, _⟩ => show win1_3.index t (1 : Fin 2) * 64 + 1 * (y 1).val = (y 1).val; rw [e31]; omega
  show out1_3 (F := Ideal) (iblk1 V c 0 t) (iblk1 V c 1 t) (iblk1 V c 2 t) ((cfg1.win 3).xinj (grid1.coords t) y)
      = Spec.comb1 (V c main_v27) (V c main_v15) (V c main_v28) (((cfg1.win 3).blk t).view.emb y)
  rw [hx, hemb]
  exact comb_rows (V c main_v27) (V c main_v15) (V c main_v28) (iblk1 V c 0 t) (iblk1 V c 1 t) (iblk1 V c 2 t)
    ⟨(y 0).val, hy0⟩ ⟨(y 1).val, hy1⟩ ⟨5000 * t.val + (y 0).val, by omega⟩
    (fun k => comb_table_block V c t _ k _ rfl) (fun k => comb_norm_block V c t _ k _ rfl) (comb_bias_block V c t _ _)

/-- An index of the result array is in point t's block iff each coordinate is in the block's range on its axis. -/
theorem comb_mem_block (t : Fin cfg1.N) (i : S100000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v29).slice (win1_3.rect t)).set ↔ _
  rw [View.set_slice_whole, Rect.mem_set_unit]
  exact Iff.rfl

/-- Every index of the result array is in the block of the point its row divided by 5000 names. -/
theorem comb_cover (i : S100000x64.Idx) : ∃ t : Fin cfg1.N, (cfg1.win 3).flush t = true ∧ i ∈ ((cfg1.win 3).blk t).view.set := by
  have hi0 : (i 0).val < 100000 := (i 0).isLt
  have hi1 : (i 1).val < 64 := (i 1).isLt
  have hN : cfg1.N = 20 := N_1
  obtain ⟨t, ht⟩ : ∃ t : Fin cfg1.N, t.val = (i 0).val / 5000 := ⟨⟨(i 0).val / 5000, by rw [hN]; omega⟩, rfl⟩
  obtain ⟨-, -, -, -, -, -, e30, e31⟩ := comb_index_maps t
  refine ⟨t, flush1_3 t, ?_⟩
  rw [comb_mem_block]
  intro a
  match a with
  | ⟨0, _⟩ => show win1_3.index t (0 : Fin 2) * 5000 ≤ (i 0).val ∧ (i 0).val < win1_3.index t (0 : Fin 2) * 5000 + 5000; rw [e30, ht]; omega
  | ⟨1, _⟩ => show win1_3.index t (1 : Fin 2) * 64 ≤ (i 1).val ∧ (i 1).val < win1_3.index t (1 : Fin 2) * 64 + 64; rw [e31]; omega

end Blocks

/-- After the first region the output array is the fused table of the arrays the region was entered with. -/
theorem arr0 (V : (c : Dev nD) → (b : Ref sig .tc) → Buf (Elt Ideal) ((c : Thread nD τ).loc b)) (c : Dev nD) :
    (dat0 (F := Ideal) V c).arrAt 3 cfg0.N = Spec.proj0 (V c main_arg0) (V c main_v16) (V c main_v15) :=
  (dat0 (F := Ideal) V c).arrAt_eq_of_cover 3 (Spec.proj0 (V c main_arg0) (V c main_v16) (V c main_v15))
    (fun t _ => proj_written_back V c t) proj_cover

/-- After the second region the output array is the closing step of the arrays the region was entered with. -/
theorem arr1 (V : (c : Dev nD) → (b : Ref sig .tc) → Buf (Elt Ideal) ((c : Thread nD τ).loc b)) (c : Dev nD) :
    (dat1 (F := Ideal) V c).arrAt 3 cfg1.N = Spec.comb1 (V c main_v27) (V c main_v15) (V c main_v28) :=
  (dat1 (F := Ideal) V c).arrAt_eq_of_cover 3 (Spec.comb1 (V c main_v27) (V c main_v15) (V c main_v28))
    (fun t _ => comb_written_back V c t) comb_cover

end Cert.Fused

end
-- ==== Proof.LibScatterGather.lean ====
/-
  ROW GATHERS AND ROW SCATTER-ADDS READ AT AN INDEX, with the words, literals and sums around them.

  A gather of whole rows of an [N, C] table at M start indices (a column [M, 1] of words) returns, at (e, h), the table's
  entry (row, h), where row is the e-th start index read as a signed integer and clamped into [0, N - 1].
  A scatter-add of M rows (an [M, C] array) into an [N, C] operand at M start indices adds, at (n, h), the entries (e, h)
  of every update row e whose start index, read as a signed integer and NOT clamped, is n; an update that lands outside
  the operand is dropped.  The vector form scatters M scalars into an [N] operand.
  Around them: a 32-bit word below 2^31 reads the same signed and unsigned; a product-plus-sum of words that stays
  below 2^32 does not wrap; the pair (a, b) with b < 3 is recovered from 3a + b; the float words of one and zero and
  the conversion of a one-bit word; and a sum of terms masked by an indicator is the sum over the smaller set.
-/
import Idealize.ShloMosaic.PureOps.Ideal
import Idealize.ShloMosaic.PureOps.Ideal.Laws
import Idealize.ShloMosaic.Lib.ValueIdx
import Idealize.ShloMosaic.Lib.ValueIdxRank1
import Idealize.ShloMosaic.Lib.IdealHost
import Idealize.ShloMosaic.Lib.Pipeline.Value

noncomputable section

open scoped BigOperators

namespace Cert.LibSG

open Idealize.ShloMosaic Idealize.ShloMosaic.ValueIdx

/-! ## (a) A gather of rows, read at an index -/

/-- The row gather's dimension numbers for a table [N, C], start indices [M, 1] and a result [M, C]. -/
abbrev rowGather (N C M : Nat) (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- The row gather with those dimension numbers, read at (e, h). -/
theorem rowGather_apply {α : Type} {N C M w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (h : Fin C) :
    Host.gather (rowGather N C M wf) x idx (ix2 e h)
      = x (ix2 ⟨min (idx (ix2 e (0 : Fin 1))).toInt.toNat (N - 1), by omega⟩ h) := by
  unfold Host.gather
  congr 1
  funext a
  refine Fin.ext ?_
  match a with
  | ⟨0, _⟩ =>
    show (rowGather N C M wf).start (ix2 e h) idx 0 + (rowGather N C M wf).batchCoord (ix2 e h) 0
      + (rowGather N C M wf).offCoord (ix2 e h) 0 = _
    rw [GatherDims.batchCoord_eq_zero _ _ _ List.not_mem_nil,
      GatherDims.offCoord_eq_zero _ _ _ (fun hm => ((GatherDims.mem_sKept _ _).mp hm).1 (List.mem_singleton.mpr rfl))]
    simp only [Nat.add_zero]
    unfold GatherDims.start
    rw [dif_pos (show (0 : Fin 2) ∈ (rowGather N C M wf).startIndexMap from List.mem_singleton.mpr rfl)]
    have hsi : (rowGather N C M wf).siIdx (ix2 e h) ⟨List.idxOf (0 : Fin 2) (rowGather N C M wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGather N C M wf).start (ix2 e h) idx 1 + (rowGather N C M wf).batchCoord (ix2 e h) 1
      + (rowGather N C M wf).offCoord (ix2 e h) 1 = h.val
    have h1 : (1 : Fin 2) ∉ (rowGather N C M wf).startIndexMap := fun hm =>
      absurd (congrArg Fin.val (List.mem_singleton.mp hm)) Nat.one_ne_zero
    have h2 : (1 : Fin 2) ∈ (rowGather N C M wf).sKept :=
      (GatherDims.mem_sKept _ _).mpr ⟨fun hm => absurd (congrArg Fin.val (List.mem_singleton.mp hm)) Nat.one_ne_zero,
        List.not_mem_nil⟩
    rw [GatherDims.batchCoord_eq_zero _ _ _ List.not_mem_nil]
    unfold GatherDims.start GatherDims.offCoord
    rw [dif_neg h1, dif_pos h2]
    simp only [Nat.add_zero, Nat.zero_add]
    rfl

/-- THE ROW GATHER AT (e, h): the table's entry (row, h), the row being the e-th start index read signed and clamped
    into [0, N - 1]. The record's lists are hypotheses, so that a program's record is an instance by seven rfl's. -/
theorem gather_row_apply {α : Type} {N C M w : Nat} (hN : 0 < N)
    (d : GatherDims ⟨2, ![N, C]⟩ ⟨2, ![M, 1]⟩ ⟨2, ![M, C]⟩)
    (hod : d.offsetDims = [1]) (hcd : d.collapsedSliceDims = [0]) (hob : d.operandBatchingDims = [])
    (hsb : d.startIndicesBatchingDims = []) (hsm : d.startIndexMap = [0]) (hiv : d.indexVectorDim = 1)
    (hss : d.sliceSizes = ![1, C])
    (x : (⟨2, ![N, C]⟩ : Shape).Idx → α) (idx : IVec ⟨2, ![M, 1]⟩ w) (e : Fin M) (h : Fin C) :
    Host.gather d x idx (ix2 e h)
      = x (ix2 ⟨min (idx (ix2 e (0 : Fin 1))).toInt.toNat (N - 1), by omega⟩ h) := by
  obtain ⟨od, cd, ob, sb, sm, iv, ss, wf⟩ := d
  simp only at hod hcd hob hsb hsm hiv hss
  subst hod hcd hob hsb hsm hiv hss
  exact rowGather_apply hN wf x idx e h

/-- The same when the e-th start index, a 32-bit word, is below N (and N ≤ 2^31): the row is the word's value. -/
theorem gather_row_apply_of_lt {α : Type} {N C M : Nat} (hN : N ≤ 2 ^ 31)
    (d : GatherDims ⟨2, ![N, C]⟩ ⟨2, ![M, 1]⟩ ⟨2, ![M, C]⟩)
    (hod : d.offsetDims = [1]) (hcd : d.collapsedSliceDims = [0]) (hob : d.operandBatchingDims = [])
    (hsb : d.startIndicesBatchingDims = []) (hsm : d.startIndexMap = [0]) (hiv : d.indexVectorDim = 1)
    (hss : d.sliceSizes = ![1, C])
    (x : (⟨2, ![N, C]⟩ : Shape).Idx → α) (idx : IVec ⟨2, ![M, 1]⟩ 32) (e : Fin M) (h : Fin C)
    (hlt : (idx (ix2 e (0 : Fin 1))).toNat < N) :
    Host.gather d x idx (ix2 e h) = x (ix2 ⟨(idx (ix2 e (0 : Fin 1))).toNat, hlt⟩ h) := by
  have hpos : 0 < N := by omega
  have key : min (idx (ix2 e (0 : Fin 1))).toInt.toNat (N - 1) = (idx (ix2 e (0 : Fin 1))).toNat := by
    rw [BitVec.toInt_eq_toNat_of_lt (by omega), Int.toNat_natCast]
    omega
  have hf : (⟨min (idx (ix2 e (0 : Fin 1))).toInt.toNat (N - 1), by omega⟩ : Fin N)
      = ⟨(idx (ix2 e (0 : Fin 1))).toNat, hlt⟩ := Fin.ext key
  rw [gather_row_apply hpos d hod hcd hob hsb hsm hiv hss, hf]

/-! ## (b) A scatter-add of rows, read at an index -/

/-- An update lands at operand index i exactly when, on every axis, its start plus its window coordinate is i's
    coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  constructor
  · intro H
    split at H
    · rename_i hall
      have hf := Option.some.inj H
      intro a
      have ha : (d.start j idx a + (d.window j a : Int)).toNat = (i a).val := by
        rw [← hf]
      have := (hall a).1
      omega
    · exact absurd H (by simp)
  · intro H
    have hall : ∀ a, 0 ≤ d.start j idx a + (d.window j a : Int) ∧ d.start j idx a + (d.window j a : Int) < s.size a :=
      fun a => by rw [H a]; exact ⟨Int.natCast_nonneg _, by exact_mod_cast (i a).isLt⟩
    rw [dif_pos hall]
    congr 1
    funext a
    refine Fin.ext ?_
    show (d.start j idx a + (d.window j a : Int)).toNat = (i a).val
    rw [H a]; exact Int.toNat_natCast _

/-- The row scatter's dimension numbers for an operand [N, C], start indices [M, 1] and updates [M, C]. -/
abbrev rowScatter (N C M : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

/-- Update entry (e, c) of a row scatter lands at (n, h) exactly when row e's start index, read signed, is n and c = h. -/
theorem rowScatter_lands {N C M w : Nat} (wf : ScatterDims.WF ⟨2, ![N, C]⟩ ⟨2, ![M, 1]⟩ ⟨2, ![M, C]⟩ [1] [0] [0] 1)
    (idx : IVec ⟨2, ![M, 1]⟩ w) (e : Fin M) (c : Fin C) (n : Fin N) (h : Fin C) :
    (rowScatter N C M wf).resultIdx? (ix2 e c) idx = some (ix2 n h)
      ↔ (idx (ix2 e (0 : Fin 1))).toInt = (n.val : Int) ∧ c = h := by
  rw [resultIdx?_eq_some_iff]
  have h10 : (1 : Fin 2) ∉ [(0 : Fin 2)] := fun hm => absurd (congrArg Fin.val (List.mem_singleton.mp hm)) Nat.one_ne_zero
  have hs0 : (rowScatter N C M wf).start (ix2 e c) idx 0 = (idx (ix2 e (0 : Fin 1))).toInt := by
    unfold ScatterDims.start
    rw [dif_pos (show (0 : Fin 2) ∈ (rowScatter N C M wf).scatterDimsToOperandDims from List.mem_singleton.mpr rfl)]
    have hsi : (rowScatter N C M wf).siIdx (ix2 e c) ⟨List.idxOf (0 : Fin 2) (rowScatter N C M wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hs1 : (rowScatter N C M wf).start (ix2 e c) idx 1 = 0 := by
    unfold ScatterDims.start
    rw [dif_neg (show (1 : Fin 2) ∉ (rowScatter N C M wf).scatterDimsToOperandDims from h10)]
  have hw0 : (rowScatter N C M wf).window (ix2 e c) 0 = 0 := by
    unfold ScatterDims.window
    rw [dif_neg]
    intro hm
    have := (List.mem_filter.mp hm).2
    simp at this
  have hw1 : (rowScatter N C M wf).window (ix2 e c) 1 = c.val := by
    unfold ScatterDims.window
    have hm : (1 : Fin 2) ∈ (rowScatter N C M wf).sKept := by
      refine List.mem_filter.mpr ⟨List.mem_finRange _, ?_⟩
      simp
    rw [dif_pos hm]
    rfl
  constructor
  · intro H
    have H0 : (rowScatter N C M wf).start (ix2 e c) idx 0 + ((rowScatter N C M wf).window (ix2 e c) 0 : Int)
        = (n.val : Int) := H 0
    have H1 : (rowScatter N C M wf).start (ix2 e c) idx 1 + ((rowScatter N C M wf).window (ix2 e c) 1 : Int)
        = (h.val : Int) := H 1
    rw [hs0, hw0] at H0
    rw [hs1, hw1] at H1
    refine ⟨by simpa using H0, Fin.ext ?_⟩
    have : ((c.val : Int)) = (h.val : Int) := by simpa using H1
    exact_mod_cast this
  · rintro ⟨H0, rfl⟩ a
    match a with
    | ⟨0, _⟩ =>
      show (rowScatter N C M wf).start (ix2 e c) idx 0 + ((rowScatter N C M wf).window (ix2 e c) 0 : Int) = (n.val : Int)
      rw [hs0, hw0, H0]; simp
    | ⟨1, _⟩ =>
      show (rowScatter N C M wf).start (ix2 e c) idx 1 + ((rowScatter N C M wf).window (ix2 e c) 1 : Int) = (c.val : Int)
      rw [hs1, hw1]; simp

/-- The row scatter-add with those dimension numbers, read at (n, h). -/
theorem rowScatter_apply {N C M w : Nat} (wf : ScatterDims.WF ⟨2, ![N, C]⟩ ⟨2, ![M, 1]⟩ ⟨2, ![M, C]⟩ [1] [0] [0] 1)
    (x : (⟨2, ![N, C]⟩ : Shape).Idx → EReal) (idx : IVec ⟨2, ![M, 1]⟩ w) (upd : (⟨2, ![M, C]⟩ : Shape).Idx → EReal)
    (n : Fin N) (h : Fin C) :
    Ideal.hostScatterAdd (rowScatter N C M wf) x idx upd (ix2 n h)
      = x (ix2 n h) + ∑ e ∈ Finset.univ.filter (fun e : Fin M => (idx (ix2 e (0 : Fin 1))).toInt = (n.val : Int)),
          upd (ix2 e h) := by
  unfold Ideal.hostScatterAdd
  congr 1
  rw [Finset.sum_filter, sum_idx2, Finset.sum_filter]
  refine Finset.sum_congr rfl fun e _ => ?_
  simp only [rowScatter_lands]
  by_cases hq : (idx (ix2 e (0 : Fin 1))).toInt = (n.val : Int)
  · simp only [hq, true_and, if_true]
    rw [Finset.sum_ite_eq' Finset.univ h (fun c => upd (ix2 e c)), if_pos (Finset.mem_univ _)]
  · simp only [hq, false_and, if_false]
    exact Finset.sum_const_zero

/-- THE ROW SCATTER-ADD AT (n, h): the operand's entry plus the entries (e, h) of the update rows e whose start index,
    read signed and not clamped, is n. -/
theorem hostScatterAdd_row_apply {N C M w : Nat}
    (d : ScatterDims ⟨2, ![N, C]⟩ ⟨2, ![M, 1]⟩ ⟨2, ![M, C]⟩)
    (huw : d.updateWindowDims = [1]) (hiw : d.insertedWindowDims = [0]) (hsd : d.scatterDimsToOperandDims = [0])
    (hiv : d.indexVectorDim = 1)
    (x : (⟨2, ![N, C]⟩ : Shape).Idx → EReal) (idx : IVec ⟨2, ![M, 1]⟩ w) (upd : (⟨2, ![M, C]⟩ : Shape).Idx → EReal)
    (n : Fin N) (h : Fin C) :
    Ideal.hostScatterAdd d x idx upd (ix2 n h)
      = x (ix2 n h) + ∑ e ∈ Finset.univ.filter (fun e : Fin M => (idx (ix2 e (0 : Fin 1))).toInt = (n.val : Int)),
          upd (ix2 e h) := by
  obtain ⟨uw, iw, sd, iv, wf⟩ := d
  simp only at huw hiw hsd hiv
  subst huw hiw hsd hiv
  exact rowScatter_apply wf x idx upd n h

/-- The same for the program's operation at the exact instance (whatever the float format). -/
theorem scatterAdd_row_apply {φ : FTy} {N C M w : Nat}
    (d : ScatterDims ⟨2, ![N, C]⟩ ⟨2, ![M, 1]⟩ ⟨2, ![M, C]⟩)
    (huw : d.updateWindowDims = [1]) (hiw : d.insertedWindowDims = [0]) (hsd : d.scatterDimsToOperandDims = [0])
    (hiv : d.indexVectorDim = 1)
    (x : FVec Ideal ⟨2, ![N, C]⟩ φ) (idx : IVec ⟨2, ![M, 1]⟩ w) (upd : FVec Ideal ⟨2, ![M, C]⟩ φ)
    (n : Fin N) (h : Fin C) :
    Host.scatterAdd d x idx upd (ix2 n h)
      = x (ix2 n h) + ∑ e ∈ Finset.univ.filter (fun e : Fin M => (idx (ix2 e (0 : Fin 1))).toInt = (n.val : Int)),
          upd (ix2 e h) :=
  hostScatterAdd_row_apply d huw hiw hsd hiv x idx upd n h

/-! ## (c) A scatter-add of scalars into a vector, read at an index -/

/-- A sum over a rank-1 index set is the sum over its coordinate. -/
theorem sum_idx1 {A : Type*} [AddCommMonoid A] {n : Nat} (f : (⟨1, ![n]⟩ : Shape).Idx → A) :
    ∑ i, f i = ∑ a : Fin n, f (ix1 a) := by
  rw [← Equiv.sum_comp (idxEquiv1 (n := n)).symm f]
  rfl

/-- The scalar scatter's dimension numbers for an operand [N], start indices [M, 1] and updates [M]. -/
abbrev vecScatter (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- Update e of a scalar scatter lands at n exactly when its start index, read signed, is n. -/
theorem vecScatter_lands {N M w : Nat} (wf : ScatterDims.WF ⟨1, ![N]⟩ ⟨2, ![M, 1]⟩ ⟨1, ![M]⟩ [] [0] [0] 1)
    (idx : IVec ⟨2, ![M, 1]⟩ w) (e : Fin M) (n : Fin N) :
    (vecScatter N M wf).resultIdx? (ix1 e) idx = some (ix1 n) ↔ (idx (ix2 e (0 : Fin 1))).toInt = (n.val : Int) := by
  rw [resultIdx?_eq_some_iff]
  have hs0 : (vecScatter N M wf).start (ix1 e) idx 0 = (idx (ix2 e (0 : Fin 1))).toInt := by
    unfold ScatterDims.start
    rw [dif_pos (show (0 : Fin 1) ∈ (vecScatter N M wf).scatterDimsToOperandDims from List.mem_singleton.mpr rfl)]
    have hsi : (vecScatter N M wf).siIdx (ix1 e) ⟨List.idxOf (0 : Fin 1) (vecScatter N M wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hw0 : (vecScatter N M wf).window (ix1 e) 0 = 0 := by
    unfold ScatterDims.window
    rw [dif_neg]
    intro hm
    have := (List.mem_filter.mp hm).2
    simp at this
  constructor
  · intro H
    have H0 : (vecScatter N M wf).start (ix1 e) idx 0 + ((vecScatter N M wf).window (ix1 e) 0 : Int)
        = (n.val : Int) := H 0
    rw [hs0, hw0] at H0
    simpa using H0
  · intro H a
    match a with
    | ⟨0, _⟩ =>
      show (vecScatter N M wf).start (ix1 e) idx 0 + ((vecScatter N M wf).window (ix1 e) 0 : Int) = (n.val : Int)
      rw [hs0, hw0, H]; simp

/-- The scalar scatter-add with those dimension numbers, read at n. -/
theorem vecScatter_apply {N M w : Nat} (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w) (upd : (⟨1, ![M]⟩ : Shape).Idx → EReal)
    (n : Fin N) :
    Ideal.hostScatterAdd (vecScatter N M wf) x idx upd (ix1 n)
      = x (ix1 n) + ∑ e ∈ Finset.univ.filter (fun e : Fin M => (idx (ix2 e (0 : Fin 1))).toInt = (n.val : Int)),
          upd (ix1 e) := by
  unfold Ideal.hostScatterAdd
  congr 1
  rw [Finset.sum_filter, sum_idx1, Finset.sum_filter]
  refine Finset.sum_congr rfl fun e _ => ?_
  simp only [vecScatter_lands]

/-- THE SCALAR SCATTER-ADD AT n: the operand's entry plus the updates e whose start index, read signed and not
    clamped, is n. -/
theorem hostScatterAdd_vec_apply {N M w : Nat}
    (d : ScatterDims ⟨1, ![N]⟩ ⟨2, ![M, 1]⟩ ⟨1, ![M]⟩)
    (huw : d.updateWindowDims = []) (hiw : d.insertedWindowDims = [0]) (hsd : d.scatterDimsToOperandDims = [0])
    (hiv : d.indexVectorDim = 1)
    (x : (⟨1, ![N]⟩ : Shape).Idx → EReal) (idx : IVec ⟨2, ![M, 1]⟩ w) (upd : (⟨1, ![M]⟩ : Shape).Idx → EReal)
    (n : Fin N) :
    Ideal.hostScatterAdd d x idx upd (ix1 n)
      = x (ix1 n) + ∑ e ∈ Finset.univ.filter (fun e : Fin M => (idx (ix2 e (0 : Fin 1))).toInt = (n.val : Int)),
          upd (ix1 e) := by
  obtain ⟨uw, iw, sd, iv, wf⟩ := d
  simp only at huw hiw hsd hiv
  subst huw hiw hsd hiv
  exact vecScatter_apply wf x idx upd n

/-- The same for the program's operation at the exact instance. -/
theorem scatterAdd_vec_apply {φ : FTy} {N M w : Nat}
    (d : ScatterDims ⟨1, ![N]⟩ ⟨2, ![M, 1]⟩ ⟨1, ![M]⟩)
    (huw : d.updateWindowDims = []) (hiw : d.insertedWindowDims = [0]) (hsd : d.scatterDimsToOperandDims = [0])
    (hiv : d.indexVectorDim = 1)
    (x : FVec Ideal ⟨1, ![N]⟩ φ) (idx : IVec ⟨2, ![M, 1]⟩ w) (upd : FVec Ideal ⟨1, ![M]⟩ φ)
    (n : Fin N) :
    Host.scatterAdd d x idx upd (ix1 n)
      = x (ix1 n) + ∑ e ∈ Finset.univ.filter (fun e : Fin M => (idx (ix2 e (0 : Fin 1))).toInt = (n.val : Int)),
          upd (ix1 e) :=
  hostScatterAdd_vec_apply d huw hiw hsd hiv x idx upd n

/-- When every start index is below 2^31, "read signed it is n" is "its value is n". -/
theorem filter_toInt_eq {M : Nat} (I : Fin M → BitVec 32) (hI : ∀ e, (I e).toNat < 2 ^ 31) (n : Nat) :
    Finset.univ.filter (fun e : Fin M => (I e).toInt = (n : Int))
      = Finset.univ.filter (fun e : Fin M => (I e).toNat = n) := by
  refine Finset.filter_congr fun e _ => ?_
  rw [BitVec.toInt_eq_toNat_of_lt (by have := hI e; omega)]
  exact Int.natCast_inj

/-! ## (d) Words -/

/-- A 32-bit word below 2^31 reads the same signed and unsigned. -/
theorem toInt_eq_toNat (w : BitVec 32) (h : w.toNat < 2 ^ 31) : w.toInt = (w.toNat : Int) :=
  BitVec.toInt_eq_toNat_of_lt (by omega)

/-- The word of a natural below 2^32 has that value. -/
theorem toNat_ofNat_lt (k : Nat) (h : k < 2 ^ 32) : (BitVec.ofNat 32 k).toNat = k := by
  rw [BitVec.toNat_ofNat]; exact Nat.mod_eq_of_lt h

/-- A product plus a sum of words that stays below 2^32 does not wrap. -/
theorem toNat_mul_add (a c b : BitVec 32) (h : a.toNat * c.toNat + b.toNat < 2 ^ 32) :
    (a * c + b).toNat = a.toNat * c.toNat + b.toNat := by
  have h1 : a.toNat * c.toNat < 2 ^ 32 := Nat.lt_of_le_of_lt (Nat.le_add_right _ _) h
  rw [BitVec.toNat_add, BitVec.toNat_mul, Nat.mod_eq_of_lt h1, Nat.mod_eq_of_lt h]

/-- The fused index 3a + b as a word: no wrap while 3a + b < 2^32. -/
theorem toNat_mul3_add (a b : BitVec 32) (h : 3 * a.toNat + b.toNat < 2 ^ 32) :
    (a * 3#32 + b).toNat = 3 * a.toNat + b.toNat := by
  have h3 : (3#32 : BitVec 32).toNat = 3 := by decide
  rw [toNat_mul_add a 3#32 b (by rw [h3]; omega), h3]; omega

/-- The same through the integer operations' names. -/
theorem toNat_muli3_addi (a b : BitVec 32) (h : 3 * a.toNat + b.toNat < 2 ^ 32) :
    (IntOp.addi (IntOp.muli a 3#32) b).toNat = 3 * a.toNat + b.toNat :=
  toNat_mul3_add a b h

/-- The pair (a, b) with b < 3 is recovered from 3a + b. -/
theorem fused3_inj {a a' b b' : Nat} (hb : b < 3) (hb' : b' < 3) : 3 * a + b = 3 * a' + b' ↔ a = a' ∧ b = b' := by
  omega

/-- Its quotient by 3 is a. -/
theorem fused3_div {a b : Nat} (hb : b < 3) : (3 * a + b) / 3 = a := by
  omega

/-- Its remainder by 3 is b. -/
theorem fused3_mod {a b : Nat} (hb : b < 3) : (3 * a + b) % 3 = b := by
  omega

/-! ## (e) Literals and one-bit conversions at the exact instance -/

/-- The f32 word 0x3F800000 is one. -/
theorem ofBits_one_f32 : Ideal.ofBits .f32 0x3F800000#32 = (1 : EReal) := Ideal.ofBits_one_f32

/-- The f32 word 0 is zero. -/
theorem ofBits_zero_f32 : Ideal.ofBits .f32 0#32 = (0 : EReal) := Ideal.ofBits_zero_f32

/-- A one-bit word is 0 or 1. -/
theorem bit_cases (b : BitVec 1) : b = 0#1 ∨ b = 1#1 := by
  revert b; decide

/-- A one-bit word converted unsigned is one when the bit is set and zero when it is not. -/
theorem uitofp_bit {φ : FTy} (b : BitVec 1) : (FloatOps.uitofp φ b : Ideal φ) = if b = 1#1 then (1 : EReal) else 0 := by
  show (((b.toNat : ℝ)) : EReal) = _
  rcases bit_cases b with rfl | rfl
  · rw [if_neg (by decide)]; simp
  · rw [if_pos rfl]; simp

/-- The set bit converts to one. -/
theorem uitofp_bit_one {φ : FTy} : (FloatOps.uitofp φ (1#1 : BitVec 1) : Ideal φ) = (1 : EReal) := by
  rw [uitofp_bit, if_pos rfl]

/-- The clear bit converts to zero. -/
theorem uitofp_bit_zero {φ : FTy} : (FloatOps.uitofp φ (0#1 : BitVec 1) : Ideal φ) = (0 : EReal) := by
  rw [uitofp_bit, if_neg (by decide)]

/-- A one-bit word widened to 32 bits and converted signed: one when the bit is set, zero when it is not. -/
theorem sitofp_setWidth_bit {φ : FTy} (b : BitVec 1) :
    (FloatOps.sitofp φ (b.setWidth 32) : Ideal φ) = if b = 1#1 then (1 : EReal) else 0 := by
  show ((((b.setWidth 32).toInt : ℝ)) : EReal) = _
  rcases bit_cases b with rfl | rfl
  · rw [if_neg (by decide), show ((0#1 : BitVec 1).setWidth 32).toInt = 0 by decide]; simp
  · rw [if_pos rfl, show ((1#1 : BitVec 1).setWidth 32).toInt = 1 by decide]; simp

/-! ## (f) Sums -/

/-- A filtered sum is the sum of the terms switched by the condition. -/
theorem sum_filter_eq_ite {ι : Type*} (S : Finset ι) (p : ι → Prop) [DecidablePred p] (f : ι → EReal) :
    ∑ e ∈ S.filter p, f e = ∑ e ∈ S, (if p e then f e else 0) :=
  Finset.sum_filter p f

/-- A term times an indicator is the term or zero (no finiteness needed: x · 1 = x and x · 0 = 0 at ±∞ too). -/
theorem mul_ite_one_zero (x : EReal) (c : Prop) [Decidable c] : x * (if c then (1 : EReal) else 0) = if c then x else 0 := by
  split_ifs
  · exact mul_one x
  · exact mul_zero x

/-- The same with the indicator on the left. -/
theorem ite_one_zero_mul (x : EReal) (c : Prop) [Decidable c] : (if c then (1 : EReal) else 0) * x = if c then x else 0 := by
  split_ifs
  · exact one_mul x
  · exact zero_mul x

/-- A filtered sum of terms each masked by an indicator is the sum over the doubly filtered set. -/
theorem sum_filter_mul_ite {ι : Type*} (S : Finset ι) (p q : ι → Prop) [DecidablePred p] [DecidablePred q] (f : ι → EReal) :
    ∑ e ∈ S.filter p, f e * (if q e then (1 : EReal) else 0) = ∑ e ∈ S.filter (fun e => p e ∧ q e), f e := by
  rw [← Finset.filter_filter, Finset.sum_filter q f]
  exact Finset.sum_congr rfl fun e _ => mul_ite_one_zero (f e) (q e)

/-- The same with the indicator on the left. -/
theorem sum_filter_ite_mul {ι : Type*} (S : Finset ι) (p q : ι → Prop) [DecidablePred p] [DecidablePred q] (f : ι → EReal) :
    ∑ e ∈ S.filter p, (if q e then (1 : EReal) else 0) * f e = ∑ e ∈ S.filter (fun e => p e ∧ q e), f e := by
  rw [← Finset.filter_filter, Finset.sum_filter q f]
  exact Finset.sum_congr rfl fun e _ => ite_one_zero_mul (f e) (q e)

/-- The masked scatter's form: over the edges into n, a term masked by "the relation is r" sums over the edges of
    relation r into n. -/
theorem sum_filter_eq_mul_ite_eq {ι κ ρ : Type*} [Fintype ι] [DecidableEq κ] [DecidableEq ρ] (D : ι → κ) (R : ι → ρ)
    (n : κ) (r : ρ) (f : ι → EReal) :
    ∑ e ∈ Finset.univ.filter (fun e => D e = n), f e * (if R e = r then (1 : EReal) else 0)
      = ∑ e ∈ Finset.univ.filter (fun e => D e = n ∧ R e = r), f e :=
  sum_filter_mul_ite Finset.univ (fun e => D e = n) (fun e => R e = r) f

/-- A filtered sum of indicators counts the doubly filtered set (each member weighing one). -/
theorem sum_filter_ite_one {ι : Type*} (S : Finset ι) (p q : ι → Prop) [DecidablePred p] [DecidablePred q] :
    ∑ e ∈ S.filter p, (if q e then (1 : EReal) else 0) = ∑ _e ∈ S.filter (fun e => p e ∧ q e), (1 : EReal) := by
  rw [← Finset.filter_filter, Finset.sum_filter q (fun _ => (1 : EReal))]

end Cert.LibSG

end
-- ==== Proof.Norms.lean ====
import proofs.«126455_j4011499454859_1_alg».proof.Proof.Spec
import proofs.«126455_j4011499454859_1_alg».proof.Proof.LibScatterGather
import Idealize.ShloMosaic.Lib.Pipeline.Value

noncomputable section

open scoped BigOperators

namespace Cert.Norms

open Idealize.ShloMosaic Idealize.ShloMosaic.ValueIdx Cert.Spec

/-! ## Literals and scalar broadcasts -/

/-- The f32 word 0xBF000000 is minus one half: sign set, exponent 126, significand 2^23, so -(2^23) · 2^(126-127-23). -/
theorem ofBits_neg_half_f32 : Ideal.ofBits .f32 0xBF000000#32 = ((-(1 / 2) : ℝ) : EReal) := by
  simp [Ideal.ofBits, Ideal.ieee, -EReal.coe_mul]; norm_num

/-- A scalar literal broadcast to any shape reads, at every index, the value its word denotes. -/
theorem bcast_scalar {t : Shape} (dims : Fin 0 → Fin t.rank)
    (h : (⟨0, ![]⟩ : Shape).BroadcastsInDim t dims) (b : BitVec 32) (j : t.Idx) :
    broadcastInDim t dims h (constant (F := Ideal) ⟨0, ![]⟩ .f32 b) j = Ideal.ofBits .f32 b :=
  broadcastInDim_apply dims h (constant (F := Ideal) ⟨0, ![]⟩ .f32 b) j (fun a => a.elim0) (fun a => a.elim0)

/-- The host power of a lane-wise maximum, read at an index: the power of the maximum of the two entries. -/
theorem powf_max_apply {s : Shape} (a c p : FVec Ideal s .f32) (j : s.Idx) :
    Host.powf (F := Ideal) (φ := .f32) (maximumf a c) p j = Ideal.pow (max (a j) (c j)) (p j) := rfl

/-- A vector of edge words broadcast to a one-column array is its column. -/
theorem bcast_col (hc : Se.BroadcastsInDim Scol (![0] : Fin 1 → Fin 2)) (I : Se.Idx → BitVec 32) :
    broadcastInDim Scol ![0] hc I = colOf I := by
  funext i
  refine broadcastInDim_apply _ hc I i (ix1 (i 0)) (fun a => ?_)
  match a with
  | ⟨0, _⟩ =>
    show (i 0).val = if (1600000 : Nat) = 1 then 0 else (i 0).val
    rw [if_neg (by decide)]

/-- The printed norm vector — (max(1, scatter-add of ones at the column's words))^(-1/2), every literal a broadcast
    scalar — read at node n. -/
theorem norm_term_apply (d : ScatterDims (⟨1, ![100000]⟩ : Shape) Scol Se)
    (huw : d.updateWindowDims = []) (hiw : d.insertedWindowDims = [0]) (hsd : d.scatterDimsToOperandDims = [0])
    (hiv : d.indexVectorDim = 1)
    (hb : (⟨0, ![]⟩ : Shape).BroadcastsInDim (⟨1, ![100000]⟩ : Shape) (![] : Fin 0 → Fin 1))
    (hc : Se.BroadcastsInDim Scol (![0] : Fin 1 → Fin 2))
    (he : (⟨0, ![]⟩ : Shape).BroadcastsInDim Se (![] : Fin 0 → Fin 1))
    (I : Se.Idx → BitVec 32) (n : Fin 100000) :
    Host.powf (F := Ideal) (φ := .f32)
        (maximumf (broadcastInDim (⟨1, ![100000]⟩ : Shape) ![] hb (id (constant (F := Ideal) ⟨0, ![]⟩ .f32 0x3F800000#32)))
          (Host.scatterAdd d (broadcastInDim (⟨1, ![100000]⟩ : Shape) ![] hb (constant (F := Ideal) ⟨0, ![]⟩ .f32 0x00000000#32))
            (broadcastInDim Scol ![0] hc I) (broadcastInDim Se ![] he (constant (F := Ideal) ⟨0, ![]⟩ .f32 0x3F800000#32))))
        (broadcastInDim (⟨1, ![100000]⟩ : Shape) ![] hb (constant (F := Ideal) ⟨0, ![]⟩ .f32 0xBF000000#32)) (ix1 n)
      = nrmAt (colOf I) n := by
  -- the power of the maximum of the two entries at n
  rw [powf_max_apply, id, bcast_scalar, bcast_scalar, bcast_col]
  -- the scatter-add at n: the operand's zero plus one for every edge whose word, read signed, is n
  rw [Cert.LibSG.scatterAdd_vec_apply d huw hiw hsd hiv, bcast_scalar]
  simp only [bcast_scalar]
  rw [Cert.LibSG.ofBits_one_f32, Cert.LibSG.ofBits_zero_f32, ofBits_neg_half_f32, zero_add]
  rfl

/-! ## Integer literals, the wrapped column, the zero operand -/

/-- An integer scalar literal broadcast to any shape is that shape's splat of the literal. -/
theorem bcast_scalarI {t : Shape} (dims : Fin 0 → Fin t.rank)
    (h : (⟨0, ![]⟩ : Shape).BroadcastsInDim t dims) (w : Nat) (b : BitVec w) :
    broadcastInDim t dims h (constantI ⟨0, ![]⟩ w b) = constantI t w b := by
  funext j
  exact broadcastInDim_apply dims h (constantI ⟨0, ![]⟩ w b) j (fun a => a.elim0) (fun a => a.elim0)

/-- The printed wrap of a vector of edge words (a negative word has 100000 added, the literals broadcast scalars),
    broadcast to a one-column array, is the column of the wrapped words. -/
theorem wrap_col (hc : Se.BroadcastsInDim Scol (![0] : Fin 1 → Fin 2))
    (he : (⟨0, ![]⟩ : Shape).BroadcastsInDim Se (![] : Fin 0 → Fin 1)) (I : Se.Idx → BitVec 32) :
    broadcastInDim Scol ![0] hc (select (cmpi .slt I (broadcastInDim Se ![] he (constantI ⟨0, ![]⟩ 32 0#32)))
        (addi I (broadcastInDim Se ![] he (constantI ⟨0, ![]⟩ 32 100000#32))) I) = colOf (wrapOf I) := by
  rw [bcast_scalarI, bcast_scalarI, bcast_col]
  rfl

/-- The f32 zero literal broadcast to any shape is the zero array. -/
theorem bcast_zero_f32 {t : Shape} (dims : Fin 0 → Fin t.rank) (h : (⟨0, ![]⟩ : Shape).BroadcastsInDim t dims) :
    broadcastInDim t dims h (constant (F := Ideal) ⟨0, ![]⟩ .f32 0x00000000#32) = fun _ => (0 : EReal) := by
  funext j
  rw [bcast_scalar, Cert.LibSG.ofBits_zero_f32]

/-! ## Row gathers and row scatter-adds over the edge column -/

/-- A gather of whole rows of a 100000-row table at the edge column's words reads, at (e, h), the table's entry
    (row, h), the row being edge e's word read signed and clamped into [0, 99999]. -/
theorem gather_rows_apply {C : Nat} (g : GatherDims ⟨2, ![100000, C]⟩ Scol ⟨2, ![1600000, C]⟩)
    (hod : g.offsetDims = [1]) (hcd : g.collapsedSliceDims = [0]) (hob : g.operandBatchingDims = [])
    (hsb : g.startIndicesBatchingDims = []) (hsm : g.startIndexMap = [0]) (hiv : g.indexVectorDim = 1)
    (hss : g.sliceSizes = ![1, C])
    (T : (⟨2, ![100000, C]⟩ : Shape).Idx → EReal) (J : Scol.Idx → BitVec 32) (e : Fin 1600000) (h : Fin C) :
    Host.gather g T J (ix2 e h) = T (ix2 (rowOf J e) h) :=
  Cert.LibSG.gather_row_apply (by decide) g hod hcd hob hsb hsm hiv hss T J e h

/-- A scatter-add of the edges' rows into a zero operand of 100000 rows reads, at (n, h), the sum of the entries (e, h)
    over the edges e whose word in the column, read signed, is n. -/
theorem scatter_rows_apply {C : Nat} (s : ScatterDims ⟨2, ![100000, C]⟩ Scol ⟨2, ![1600000, C]⟩)
    (huw : s.updateWindowDims = [1]) (hiw : s.insertedWindowDims = [0]) (hsd : s.scatterDimsToOperandDims = [0])
    (hiv : s.indexVectorDim = 1)
    (Z : (⟨2, ![100000, C]⟩ : Shape).Idx → EReal) (hZ : ∀ i, Z i = 0) (D : Scol.Idx → BitVec 32)
    (U : (⟨2, ![1600000, C]⟩ : Shape).Idx → EReal) (n : Fin 100000) (h : Fin C) :
    Host.scatterAdd (F := Ideal) (φ := .f32) s Z D U (ix2 n h)
      = ∑ e ∈ Finset.univ.filter (fun e : Fin 1600000 => (D (ix2 e (0 : Fin 1))).toInt = (n.val : Int)), U (ix2 e h) := by
  rw [Cert.LibSG.scatterAdd_row_apply s huw hiw hsd hiv, hZ, zero_add]

end Cert.Norms

end
-- ==== Proof.HostK5.lean ====
import proofs.«126455_j4011499454859_1_alg».proof.Proof.Gen.KernelIdeal.Frame
import proofs.«126455_j4011499454859_1_alg».proof.Proof.Norms

noncomputable section

open scoped BigOperators

namespace Cert.Fused

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ) (ρ : Dev nD → PrngReg)

/-! ## Walking a buffer back through the stretches of host operations

Each stretch is a list of operations, each writing one result reference. A buffer none of them writes is unchanged across
the stretch; a buffer one of them writes holds that operation's function of its operands' contents. -/

/-- A stretch of host operations leaves a buffer it never writes as it was: each operation's written set is its one
    result reference, told apart from the buffer as references. -/
local macro "k5_stretch_keeps" ops:ident : tactic =>
  `(tactic| (refine StableHlo.after_of_forall_not_mem _ _ (List.forall_iff_forall_mem.mp ?_)
             simp only [$ops:ident, List.Forall, StableHlo.nullary_writes, StableHlo.unary_writes, StableHlo.binary_writes,
               StableHlo.ternary_writes, Finset.mem_singleton]
             repeat' apply And.intro
             all_goals exact StableHlo.devRef_ne_of_ne (by decide)))

/-! ### The arguments the first region's inputs are made of: untouched up to the last stretch -/

theorem k5_W4_arg0 (c : Dev nD) : W4 m ρ c (Proc.devRef .tc main_arg0) = m ((c : Thread nD τ).loc main_arg0) :=
  calc W4 m ρ c (Proc.devRef .tc main_arg0)
    _ = W3 m ρ c (Proc.devRef .tc main_arg0) := by k5_stretch_keeps hostOps0_3
    _ = W2 m ρ c (Proc.devRef .tc main_arg0) := by k5_stretch_keeps hostOps0_2
    _ = W1 m ρ c (Proc.devRef .tc main_arg0) := by k5_stretch_keeps hostOps0_1
    _ = W0 m ρ c (Proc.devRef .tc main_arg0) := by k5_stretch_keeps hostOps0
    _ = m ((c : Thread nD τ).loc main_arg0) := rfl

theorem k5_W4_arg4 (c : Dev nD) : W4 m ρ c (Proc.devRef .tc main_arg4) = m ((c : Thread nD τ).loc main_arg4) :=
  calc W4 m ρ c (Proc.devRef .tc main_arg4)
    _ = W3 m ρ c (Proc.devRef .tc main_arg4) := by k5_stretch_keeps hostOps0_3
    _ = W2 m ρ c (Proc.devRef .tc main_arg4) := by k5_stretch_keeps hostOps0_2
    _ = W1 m ρ c (Proc.devRef .tc main_arg4) := by k5_stretch_keeps hostOps0_1
    _ = W0 m ρ c (Proc.devRef .tc main_arg4) := by k5_stretch_keeps hostOps0
    _ = m ((c : Thread nD τ).loc main_arg4) := rfl

theorem k5_W4_arg5 (c : Dev nD) : W4 m ρ c (Proc.devRef .tc main_arg5) = m ((c : Thread nD τ).loc main_arg5) :=
  calc W4 m ρ c (Proc.devRef .tc main_arg5)
    _ = W3 m ρ c (Proc.devRef .tc main_arg5) := by k5_stretch_keeps hostOps0_3
    _ = W2 m ρ c (Proc.devRef .tc main_arg5) := by k5_stretch_keeps hostOps0_2
    _ = W1 m ρ c (Proc.devRef .tc main_arg5) := by k5_stretch_keeps hostOps0_1
    _ = W0 m ρ c (Proc.devRef .tc main_arg5) := by k5_stretch_keeps hostOps0
    _ = m ((c : Thread nD τ).loc main_arg5) := rfl

/-- The first region finds the features as launched. -/
theorem V5_arg0 (c : Dev nD) : V5 m ρ c main_arg0 = m ((c : Thread nD τ).loc main_arg0) :=
  calc V5 m ρ c main_arg0
    _ = W4 m ρ c (Proc.devRef .tc main_arg0) := by k5_stretch_keeps hostOps0_4
    _ = m ((c : Thread nD τ).loc main_arg0) := k5_W4_arg0 m ρ c

/-! ### What each stretch computes at the buffers it writes, from any contents W before it -/

/-- The last stretch: the weights' concatenation. -/
theorem k5_ops4_v16 (W : Valuation τ sig (Elt Ideal)) :
    (StableHlo.after hostOps0_4 W (Proc.devRef .tc main_v16) : S128x128.Idx → EReal)
      = concatenate S128x128 1 [⟨S128x64, W (Proc.devRef .tc main_arg4)⟩, ⟨S128x64, W (Proc.devRef .tc main_arg5)⟩]
          concatenates_S128x64_S128x64_S128x128_d1 := by
  after_results

/-- The last stretch: the two norm vectors as columns, side by side; the second is raised to its power here. -/
theorem k5_ops4_v15 (W : Valuation τ sig (Elt Ideal)) :
    (StableHlo.after hostOps0_4 W (Proc.devRef .tc main_v15) : S100000x2.Idx → EReal)
      = concatenate S100000x2 1
          [⟨S100000x1, broadcastInDim S100000x1 ![0] bcast_S100000_S100000x1_0 (W (Proc.devRef .tc main_v9))⟩,
           ⟨S100000x1, broadcastInDim S100000x1 ![0] bcast_S100000_S100000x1_0
              (Host.powf (F := Ideal) (φ := .f32) (W (Proc.devRef .tc main_v10))
                (broadcastInDim S100000 ![] bcast_S_S100000 (constant (F := Ideal) S_ .f32 0xBF000000#32)))⟩]
          concatenates_S100000x1_S100000x1_S100000x2_d1 := by
  after_results

/-- The second clip: the maximum of the broadcast (converted) one and the out-degree. -/
theorem k5_ops3_v10 (W : Valuation τ sig (Elt Ideal)) :
    (StableHlo.after hostOps0_3 W (Proc.devRef .tc main_v10) : S100000.Idx → EReal)
      = maximumf (F := Ideal) (φ := .f32) (broadcastInDim S100000 ![] bcast_S_S100000 (id (W (Proc.devRef .tc main_cst_4) : S_.Idx → EReal)))
          (W (Proc.devRef .tc main_v6)) := by
  after_results
  rfl

/-- The middle stretch raises the first clipped degree to its power … -/
theorem k5_ops2_v9 (W : Valuation τ sig (Elt Ideal)) :
    (StableHlo.after hostOps0_2 W (Proc.devRef .tc main_v9) : S100000.Idx → EReal)
      = Host.powf (F := Ideal) (φ := .f32) (W (Proc.devRef .tc main_v7))
          (broadcastInDim S100000 ![] bcast_S_S100000 (constant (F := Ideal) S_ .f32 0xBF000000#32)) := by
  after_results

/-- … and makes the second clip's lower bound, one. -/
theorem k5_ops2_cst4 (W : Valuation τ sig (Elt Ideal)) :
    (StableHlo.after hostOps0_2 W (Proc.devRef .tc main_cst_4) : S_.Idx → EReal) = constant (F := Ideal) S_ .f32 0x3F800000#32 := by
  after_results

/-- The first clip: the maximum of the broadcast (converted) one and the in-degree. -/
theorem k5_ops1_v7 (W : Valuation τ sig (Elt Ideal)) :
    (StableHlo.after hostOps0_1 W (Proc.devRef .tc main_v7) : S100000.Idx → EReal)
      = maximumf (F := Ideal) (φ := .f32) (broadcastInDim S100000 ![] bcast_S_S100000 (id (W (Proc.devRef .tc main_cst_2) : S_.Idx → EReal)))
          (W (Proc.devRef .tc main_v3)) := by
  after_results
  rfl

/-- The first stretch makes the first clip's lower bound, one … -/
theorem k5_ops0_cst2 (W : Valuation τ sig (Elt Ideal)) :
    (StableHlo.after hostOps0 W (Proc.devRef .tc main_cst_2) : S_.Idx → EReal) = constant (F := Ideal) S_ .f32 0x3F800000#32 := by
  after_results

/-- … the in-degree: ones summed into zeros at the destination words … -/
theorem k5_ops0_v3 (W : Valuation τ sig (Elt Ideal)) :
    (StableHlo.after hostOps0 W (Proc.devRef .tc main_v3) : S100000.Idx → EReal)
      = Host.scatterAdd scatter_S100000_S1600000x1_S1600000_n_0_0_1
          (broadcastInDim S100000 ![] bcast_S_S100000 (constant (F := Ideal) S_ .f32 0x00000000#32))
          (broadcastInDim S1600000x1 ![0] bcast_S1600000_S1600000x1_0 (W (Proc.devRef .tc main_arg3) : S1600000.Idx → BitVec 32))
          (broadcastInDim S1600000 ![] bcast_S_S1600000 (constant (F := Ideal) S_ .f32 0x3F800000#32)) := by
  after_results

/-- … and the out-degree: the same at the source words. -/
theorem k5_ops0_v6 (W : Valuation τ sig (Elt Ideal)) :
    (StableHlo.after hostOps0 W (Proc.devRef .tc main_v6) : S100000.Idx → EReal)
      = Host.scatterAdd scatter_S100000_S1600000x1_S1600000_n_0_0_1
          (broadcastInDim S100000 ![] bcast_S_S100000 (constant (F := Ideal) S_ .f32 0x00000000#32))
          (broadcastInDim S1600000x1 ![0] bcast_S1600000_S1600000x1_0 (W (Proc.devRef .tc main_arg2) : S1600000.Idx → BitVec 32))
          (broadcastInDim S1600000 ![] bcast_S_S1600000 (constant (F := Ideal) S_ .f32 0x3F800000#32)) := by
  after_results

/-! ### The norm vector of a vector of edge words, as the operations spell it -/

/-- The degree of each node clipped below at one: ones summed into zeros at the words, then the maximum with one. -/
def k5_clipDeg (I : S1600000.Idx → BitVec 32) : S100000.Idx → EReal :=
  maximumf (F := Ideal) (φ := .f32)
    (broadcastInDim S100000 ![] bcast_S_S100000 (id (constant (F := Ideal) S_ .f32 0x3F800000#32)))
    (Host.scatterAdd scatter_S100000_S1600000x1_S1600000_n_0_0_1
      (broadcastInDim S100000 ![] bcast_S_S100000 (constant (F := Ideal) S_ .f32 0x00000000#32))
      (broadcastInDim S1600000x1 ![0] bcast_S1600000_S1600000x1_0 I)
      (broadcastInDim S1600000 ![] bcast_S_S1600000 (constant (F := Ideal) S_ .f32 0x3F800000#32)))

/-- The clipped degree to the power -1/2. -/
def k5_normVec (I : S1600000.Idx → BitVec 32) : S100000.Idx → EReal :=
  Host.powf (F := Ideal) (φ := .f32) (k5_clipDeg I)
    (broadcastInDim S100000 ![] bcast_S_S100000 (constant (F := Ideal) S_ .f32 0xBF000000#32))

/-- Read at a node it is the specification's norm. -/
theorem k5_normVec_apply (I : S1600000.Idx → BitVec 32) (n : Fin 100000) : k5_normVec I (ix1 n) = Spec.nrmAt (Spec.colOf I) n :=
  Norms.norm_term_apply scatter_S100000_S1600000x1_S1600000_n_0_0_1 rfl rfl rfl rfl
    bcast_S_S100000 bcast_S1600000_S1600000x1_0 bcast_S_S1600000 I n

/-! ### The two clipped degrees and the first norm vector, walked back to the launch -/

/-- After the first clip: the in-degree clipped, of the destination words. -/
theorem k5_W2_v7 (c : Dev nD) :
    (W2 m ρ c (Proc.devRef .tc main_v7) : S100000.Idx → EReal) = k5_clipDeg (m ((c : Thread nD τ).loc main_arg3)) := by
  refine (k5_ops1_v7 (W1 m ρ c)).trans ?_
  rw [show (W1 m ρ c (Proc.devRef .tc main_cst_2) : S_.Idx → EReal) = _ from k5_ops0_cst2 (W0 m ρ c),
    show (W1 m ρ c (Proc.devRef .tc main_v3) : S100000.Idx → EReal) = _ from k5_ops0_v3 (W0 m ρ c)]
  rfl

/-- The first norm vector is final after the middle stretch. -/
theorem k5_W4_v9 (c : Dev nD) :
    (W4 m ρ c (Proc.devRef .tc main_v9) : S100000.Idx → EReal) = k5_normVec (m ((c : Thread nD τ).loc main_arg3)) :=
  calc (W4 m ρ c (Proc.devRef .tc main_v9) : S100000.Idx → EReal)
    _ = W3 m ρ c (Proc.devRef .tc main_v9) := by k5_stretch_keeps hostOps0_3
    _ = Host.powf (F := Ideal) (φ := .f32) (W2 m ρ c (Proc.devRef .tc main_v7))
          (broadcastInDim S100000 ![] bcast_S_S100000 (constant (F := Ideal) S_ .f32 0xBF000000#32)) := k5_ops2_v9 (W2 m ρ c)
    _ = k5_normVec (m ((c : Thread nD τ).loc main_arg3)) := by rw [k5_W2_v7 m ρ c]; rfl

/-- The out-degree waits, unclipped, through the first clip and the middle stretch. -/
theorem k5_W3_v6 (c : Dev nD) :
    (W3 m ρ c (Proc.devRef .tc main_v6) : S100000.Idx → EReal)
      = Host.scatterAdd scatter_S100000_S1600000x1_S1600000_n_0_0_1
          (broadcastInDim S100000 ![] bcast_S_S100000 (constant (F := Ideal) S_ .f32 0x00000000#32))
          (broadcastInDim S1600000x1 ![0] bcast_S1600000_S1600000x1_0 (m ((c : Thread nD τ).loc main_arg2) : S1600000.Idx → BitVec 32))
          (broadcastInDim S1600000 ![] bcast_S_S1600000 (constant (F := Ideal) S_ .f32 0x3F800000#32)) :=
  calc (W3 m ρ c (Proc.devRef .tc main_v6) : S100000.Idx → EReal)
    _ = W2 m ρ c (Proc.devRef .tc main_v6) := by k5_stretch_keeps hostOps0_2
    _ = W1 m ρ c (Proc.devRef .tc main_v6) := by k5_stretch_keeps hostOps0_1
    _ = _ := k5_ops0_v6 (W0 m ρ c)

/-- After the second clip: the out-degree clipped, of the source words. -/
theorem k5_W4_v10 (c : Dev nD) :
    (W4 m ρ c (Proc.devRef .tc main_v10) : S100000.Idx → EReal) = k5_clipDeg (m ((c : Thread nD τ).loc main_arg2)) := by
  refine (k5_ops3_v10 (W3 m ρ c)).trans ?_
  rw [show (W3 m ρ c (Proc.devRef .tc main_cst_4) : S_.Idx → EReal) = _ from k5_ops2_cst4 (W2 m ρ c), k5_W3_v6 m ρ c]
  rfl

/-! ### The two concatenations read at an index -/

/-- Two 128x64 matrices side by side, read at (a, b): the first at column b below 64, the second at column b - 64. -/
theorem k5_cat_eq_catW (A B : S128x64.Idx → EReal) :
    concatenate S128x128 1 [⟨S128x64, A⟩, ⟨S128x64, B⟩] concatenates_S128x64_S128x64_S128x128_d1 = Spec.catW A B := by
  funext i
  obtain ⟨a, b, rfl⟩ : ∃ (a : Fin 128) (b : Fin 128), i = ix2 a b := ⟨i 0, i 1, eq_ix2 i⟩
  have hb : b.val < 128 := b.isLt
  by_cases h : b.val < 64
  · have e : Spec.catW A B (ix2 a b) = A (ix2 a ⟨b.val, h⟩) := dif_pos h
    rw [e]
    refine concatenate_pair_apply_left (1 : Fin 2) A B _ (ix2 a b) rfl (ix2 a ⟨b.val, h⟩) ?_
    intro d
    match d with
    | ⟨0, _⟩ => rfl
    | ⟨1, _⟩ => rfl
  · have e : Spec.catW A B (ix2 a b) = B (ix2 a ⟨b.val - 64, by omega⟩) := dif_neg h
    rw [e]
    refine concatenate_pair_apply_right (1 : Fin 2) A B _ (ix2 a b) rfl rfl (ix2 a ⟨b.val - 64, by omega⟩) ?_ ?_
    · intro d hd
      match d, hd with
      | ⟨0, _⟩, _ => rfl
      | ⟨1, _⟩, hd => exact absurd rfl hd
    · show (b.val - 64) + 64 = b.val
      omega

/-- A vector of 100000 broadcast to one column, read at row a: the vector at a. -/
theorem k5_bcast_col1_apply (X : S100000.Idx → EReal) (a : Fin 100000) :
    broadcastInDim S100000x1 ![0] bcast_S100000_S100000x1_0 X (ix2 a (0 : Fin 1)) = X (ix1 a) := by
  refine broadcastInDim_apply ![0] bcast_S100000_S100000x1_0 X (ix2 a (0 : Fin 1)) (ix1 a) ?_
  intro d
  match d with
  | ⟨0, _⟩ =>
    have hne : ¬ ((100000 : Nat) = 1) := by decide
    exact (if_neg hne).symm

/-- Two vectors of 100000 as columns side by side, read at (a, b): the first at column 0, the second at column 1. -/
theorem k5_cat_cols_apply (X Y : S100000.Idx → EReal) (a : Fin 100000) (b : Fin 2) :
    concatenate S100000x2 1
        [⟨S100000x1, broadcastInDim S100000x1 ![0] bcast_S100000_S100000x1_0 X⟩,
         ⟨S100000x1, broadcastInDim S100000x1 ![0] bcast_S100000_S100000x1_0 Y⟩]
        concatenates_S100000x1_S100000x1_S100000x2_d1 (ix2 a b)
      = if b.val = 0 then X (ix1 a) else Y (ix1 a) := by
  have hb : b.val < 2 := b.isLt
  by_cases h : b.val = 0
  · rw [if_pos h, ← k5_bcast_col1_apply X a]
    refine concatenate_pair_apply_left (1 : Fin 2) (broadcastInDim S100000x1 ![0] bcast_S100000_S100000x1_0 X)
      (broadcastInDim S100000x1 ![0] bcast_S100000_S100000x1_0 Y) _ (ix2 a b) rfl (ix2 a (0 : Fin 1)) ?_
    intro d
    match d with
    | ⟨0, _⟩ => rfl
    | ⟨1, _⟩ => exact h.symm
  · rw [if_neg h, ← k5_bcast_col1_apply Y a]
    refine concatenate_pair_apply_right (1 : Fin 2) (broadcastInDim S100000x1 ![0] bcast_S100000_S100000x1_0 X)
      (broadcastInDim S100000x1 ![0] bcast_S100000_S100000x1_0 Y) _ (ix2 a b) rfl rfl (ix2 a (0 : Fin 1)) ?_ ?_
    · intro d hd
      match d, hd with
      | ⟨0, _⟩, _ => rfl
      | ⟨1, _⟩, hd => exact absurd rfl hd
    · show 0 + 1 = b.val
      omega

/-! ### The first region's three input arrays -/

/-- The first region finds the two weight matrices side by side. -/
theorem V5_v16 (c : Dev nD) :
    V5 m ρ c main_v16 = Spec.catW (m ((c : Thread nD τ).loc main_arg4)) (m ((c : Thread nD τ).loc main_arg5)) := by
  refine (k5_ops4_v16 (W4 m ρ c)).trans ?_
  rw [k5_W4_arg4 m ρ c, k5_W4_arg5 m ρ c]
  exact k5_cat_eq_catW _ _

/-- The first region finds the two norms side by side: in-norm (destination words) then out-norm (source words). -/
theorem V5_v15 (c : Dev nD) :
    V5 m ρ c main_v15 = Spec.nrm2 (Spec.colOf (m ((c : Thread nD τ).loc main_arg2))) (Spec.colOf (m ((c : Thread nD τ).loc main_arg3))) := by
  refine (k5_ops4_v15 (W4 m ρ c)).trans ?_
  rw [k5_W4_v9 m ρ c, k5_W4_v10 m ρ c]
  funext i
  obtain ⟨a, b, rfl⟩ : ∃ (a : Fin 100000) (b : Fin 2), i = ix2 a b := ⟨i 0, i 1, eq_ix2 i⟩
  refine (k5_cat_cols_apply (k5_normVec (m ((c : Thread nD τ).loc main_arg3))) (k5_normVec (m ((c : Thread nD τ).loc main_arg2))) a b).trans ?_
  rw [k5_normVec_apply, k5_normVec_apply]
  rfl

end Cert.Fused

end
-- ==== Proof.HostK7.lean ====
import proofs.«126455_j4011499454859_1_alg».proof.Proof.Gen.KernelIdeal.Frame
import proofs.«126455_j4011499454859_1_alg».proof.Proof.Norms
import Idealize.ShloMosaic.Lib.ValueLayout

noncomputable section

open scoped BigOperators

namespace Cert.Fused

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ) (ρ : Dev nD → PrngReg)

/-- A buffer that none of the fourteen host operations between the two regions writes holds, at the second region's
    entry, what it held at the first region's exit. -/
local macro "k7_host1_keeps" : tactic =>
  `(tactic| (refine StableHlo.after_of_forall_not_mem _ _ (List.forall_iff_forall_mem.mp ?_) <;>
      simp only [hostOps1, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton] <;>
      (repeat' apply And.intro) <;>
      exact StableHlo.devRef_ne_of_ne (by decide)))

/-- The source words leave the first region as launched: no host operation and no region writes them. -/
theorem k7_W6_arg2 (c : Dev nD) : W6 m ρ c (Proc.devRef .tc main_arg2) = m ((c : Thread nD τ).loc main_arg2) :=
  have h7 : W7 m ρ c (Proc.devRef .tc main_arg2) = W6 m ρ c (Proc.devRef .tc main_arg2) := by k7_host1_keeps
  h7.symm.trans ((W8_of_ne m ρ c main_arg2 (by decide)).symm.trans (W8_main_arg2 m ρ c))

/-- The destination words leave the first region as launched. -/
theorem k7_W6_arg3 (c : Dev nD) : W6 m ρ c (Proc.devRef .tc main_arg3) = m ((c : Thread nD τ).loc main_arg3) :=
  have h7 : W7 m ρ c (Proc.devRef .tc main_arg3) = W6 m ρ c (Proc.devRef .tc main_arg3) := by k7_host1_keeps
  h7.symm.trans ((W8_of_ne m ρ c main_arg3 (by decide)).symm.trans (W8_main_arg3 m ρ c))

/-- The bias leaves the first region as launched. -/
theorem k7_W6_arg6 (c : Dev nD) : W6 m ρ c (Proc.devRef .tc main_arg6) = m ((c : Thread nD τ).loc main_arg6) :=
  have h7 : W7 m ρ c (Proc.devRef .tc main_arg6) = W6 m ρ c (Proc.devRef .tc main_arg6) := by k7_host1_keeps
  h7.symm.trans ((W8_of_ne m ρ c main_arg6 (by decide)).symm.trans (W8_main_arg6 m ρ c))

/-- A scalar word broadcast over the edges is that word at every edge. -/
theorem k7_bcast_word (w : BitVec 32) :
    broadcastInDim S1600000 ![] bcast_S_S1600000 (constantI S_ 32 w) = constantI Spec.Se 32 w :=
  funext fun i => broadcastInDim_apply _ bcast_S_S1600000 (constantI S_ 32 w) i (fun a => a.elim0) (fun a => a.elim0)

/-- The host operations' wrapped source words are the specification's. -/
theorem k7_wrap_eq (I : IVec S1600000 32) :
    select (cmpi CmpIPredicate.slt I (broadcastInDim S1600000 ![] bcast_S_S1600000 (constantI S_ 32 0#32)))
        (addi I (broadcastInDim S1600000 ![] bcast_S_S1600000 (constantI S_ 32 100000#32))) I
      = Spec.wrapOf I := by
  rw [k7_bcast_word, k7_bcast_word]
  rfl

/-- The zero table: a broadcast of the scalar zero reads zero everywhere. -/
theorem k7_zeros_apply (i : S100000x128.Idx) :
    broadcastInDim S100000x128 ![] bcast_S_S100000x128 (constant (F := Ideal) S_ .f32 0#32) i = (0 : EReal) := by
  rw [broadcastInDim_apply _ bcast_S_S100000x128 (constant (F := Ideal) S_ .f32 0#32) i (fun a => a.elim0) (fun a => a.elim0),
    constant_apply]
  exact Cert.LibSG.ofBits_zero_f32

/-- THE HOST OPERATIONS' TERM AT (n, h), over any table T, source words I2 and destination words I3: the rows of T
    named by the wrapped, clamped source words, summed over the edges whose destination word is n. -/
theorem k7_term_apply (T : FVec Ideal S100000x128 .f32) (I2 I3 : IVec S1600000 32) (n : Fin 100000) (h : Fin 128) :
    Host.scatterAdd (F := Ideal) scatter_S100000x128_S1600000x1_S1600000x128_1_0_0_1
        (broadcastInDim S100000x128 ![] bcast_S_S100000x128 (constant (F := Ideal) S_ .f32 0#32))
        (broadcastInDim S1600000x1 ![0] bcast_S1600000_S1600000x1_0 I3)
        (Host.gather gather_S100000x128_S1600000x1_S1600000x128_1_0_n_n_0_1_1128 T
          (broadcastInDim S1600000x1 ![0] bcast_S1600000_S1600000x1_0
            (select (cmpi CmpIPredicate.slt I2 (broadcastInDim S1600000 ![] bcast_S_S1600000 (constantI S_ 32 0#32)))
              (addi I2 (broadcastInDim S1600000 ![] bcast_S_S1600000 (constantI S_ 32 100000#32))) I2))) (ix2 n h)
      = Spec.aggRows (Spec.colOf I3) (Spec.colOf (Spec.wrapOf I2)) T (ix2 n h) := by
  rw [k7_wrap_eq, Cert.Norms.bcast_col bcast_S1600000_S1600000x1_0 I3,
    Cert.Norms.bcast_col bcast_S1600000_S1600000x1_0 (Spec.wrapOf I2)]
  rw [Cert.LibSG.scatterAdd_row_apply _ rfl rfl rfl rfl, k7_zeros_apply, zero_add]
  show _ = Spec.agg (Spec.colOf I3) (Spec.colOf (Spec.wrapOf I2)) (fun r => T (ix2 r h)) n
  unfold Spec.agg
  refine Finset.sum_congr rfl fun e _ => ?_
  rw [Cert.LibSG.gather_row_apply (by decide) _ rfl rfl rfl rfl rfl rfl rfl]
  rfl

/-- The host operations between the regions, read off any contents W at the first region's exit. -/
theorem k7_host1_v27 (W : Valuation τ sig (Elt Ideal)) :
    (StableHlo.after (hostOps1 (F := Ideal)) W (Proc.devRef .tc main_v27) : S100000x128.Idx → EReal)
      = Host.scatterAdd (F := Ideal) scatter_S100000x128_S1600000x1_S1600000x128_1_0_0_1
        (broadcastInDim S100000x128 ![] bcast_S_S100000x128 (constant (F := Ideal) S_ .f32 0#32))
        (broadcastInDim S1600000x1 ![0] bcast_S1600000_S1600000x1_0 (W (Proc.devRef .tc main_arg3)))
        (Host.gather gather_S100000x128_S1600000x1_S1600000x128_1_0_n_n_0_1_1128 (W (Proc.devRef .tc main_v17))
          (broadcastInDim S1600000x1 ![0] bcast_S1600000_S1600000x1_0
            (select (cmpi CmpIPredicate.slt (W (Proc.devRef .tc main_arg2)) (broadcastInDim S1600000 ![] bcast_S_S1600000 (constantI S_ 32 0#32)))
              (addi (W (Proc.devRef .tc main_arg2)) (broadcastInDim S1600000 ![] bcast_S_S1600000 (constantI S_ 32 100000#32)))
              (W (Proc.devRef .tc main_arg2))))) := by
  after_results

/-- The second region finds the first region's output gathered along the wrapped source words and summed into the
    destination words' nodes. -/
theorem V7_v27 (c : Dev nD) :
    V7 m ρ c main_v27 = Spec.aggRows (Spec.colOf (m ((c : Thread nD τ).loc main_arg3)))
      (Spec.colOf (Spec.wrapOf (m ((c : Thread nD τ).loc main_arg2)))) (V6 m ρ c main_v17) := by
  funext i
  obtain ⟨n, h, rfl⟩ : ∃ (n : Fin 100000) (h : Fin 128), i = ix2 n h := ⟨i 0, i 1, eq_ix2 i⟩
  rw [← k7_W6_arg2 m ρ c, ← k7_W6_arg3 m ρ c]
  refine (congrFun (k7_host1_v27 (W6 m ρ c)) (ix2 n h)).trans ?_
  exact k7_term_apply (W6 m ρ c (Proc.devRef .tc main_v17)) (W6 m ρ c (Proc.devRef .tc main_arg2))
    (W6 m ρ c (Proc.devRef .tc main_arg3)) n h

/-- The second region finds the norms as the first did. -/
theorem V7_v15 (c : Dev nD) : V7 m ρ c main_v15 = V5 m ρ c main_v15 :=
  have h7 : W7 m ρ c (Proc.devRef .tc main_v15) = W6 m ρ c (Proc.devRef .tc main_v15) := by k7_host1_keeps
  h7.trans ((W6_arr m ρ c 2).trans (((dat0 (V5 m ρ) c).arrAt_in 2 rfl _).trans (A_eq0 (V5 m ρ) c 2)))

/-- The last host operation, read off any contents W at the first region's exit: the bias recast as one row. -/
theorem k7_host1_v28 (W : Valuation τ sig (Elt Ideal)) :
    (StableHlo.after (hostOps1 (F := Ideal)) W (Proc.devRef .tc main_v28) : S1x64.Idx → EReal)
      = shapeCast S1x64 (W (Proc.devRef .tc main_arg6) : S64.Idx → EReal) shapeCasts_S64_S1x64 := by
  after_results
  rfl

/-- The second region finds the bias as a one-row array. -/
theorem V7_v28 (c : Dev nD) : V7 m ρ c main_v28 = Spec.rowB (m ((c : Thread nD τ).loc main_arg6)) := by
  have e : (V7 m ρ c main_v28 : S1x64.Idx → EReal)
      = shapeCast S1x64 (m ((c : Thread nD τ).loc main_arg6) : S64.Idx → EReal) shapeCasts_S64_S1x64 := by
    rw [← k7_W6_arg6 m ρ c]
    exact k7_host1_v28 (W6 m ρ c)
  rw [e]
  funext i
  obtain ⟨u, j, rfl⟩ : ∃ (u : Fin 1) (j : Fin 64), i = ix2 u j := ⟨i 0, i 1, eq_ix2 i⟩
  exact shapeCast_a_1a_apply _ _ u j

end Cert.Fused

end
-- ==== Proof.KernelValue.lean ====
import proofs.«126455_j4011499454859_1_alg».proof.Proof.KernelRun
import proofs.«126455_j4011499454859_1_alg».proof.Proof.Regions
import proofs.«126455_j4011499454859_1_alg».proof.Proof.HostK5
import proofs.«126455_j4011499454859_1_alg».proof.Proof.HostK7

noncomputable section

open scoped BigOperators

namespace Cert.Fused

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ) (ρ : Dev nD → PrngReg)

/-- The fused arrangement of the launched arguments: features, the wrapped source words, the source words, the destination
    words (each as a column), the two weight matrices and the bias. -/
abbrev specOf (c : Dev nD) : Spec.So.Idx → EReal :=
  Spec.specOut (m ((c : Thread nD τ).loc main_arg0))
    (Spec.colOf (Spec.wrapOf (m ((c : Thread nD τ).loc main_arg2))))
    (Spec.colOf (m ((c : Thread nD τ).loc main_arg2)))
    (Spec.colOf (m ((c : Thread nD τ).loc main_arg3)))
    (m ((c : Thread nD τ).loc main_arg4)) (m ((c : Thread nD τ).loc main_arg5)) (m ((c : Thread nD τ).loc main_arg6))

/-- The result array after the second region: the closing step of (the first region's fused table, gathered and summed over
    the edges), the norms and the bias — which is the fused arrangement. -/
theorem out_value (c : Dev nD) : W8 m ρ c (Proc.devRef .tc main_v29) = specOf m c := by
  have h8 : W8 m ρ c (Proc.devRef .tc main_v29) = (dat1 (V7 m ρ) c).arrAt 3 cfg1.N := W8_arr m ρ c 3
  have h6 : V6 m ρ c main_v17 = (dat0 (V5 m ρ) c).arrAt 3 cfg0.N := W6_arr m ρ c 3
  rw [h8, arr1 (V7 m ρ) c, V7_v27 m ρ c, V7_v15 m ρ c, V7_v28 m ρ c, h6, arr0 (V5 m ρ) c, V5_arg0 m ρ c, V5_v16 m ρ c,
    V5_v15 m ρ c]
  exact Spec.fused_eq_specOut _ _ _ _ _ _ _

/-- The idealized kernel's run: every weakly fair execution terminates, nothing faulting, the result array at the fused
    arrangement of the launched arguments and every argument array as launched. -/
theorem run_value : θ_run defs (onTc (τ := τ) (main (F := Ideal))) ⟨m, fun _ => 0, ρ⟩ (fun r => ∀ c : Dev nD,
      r.2.mem ((c.tc : Thread nD τ).loc main_v29) = specOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c).1.trans (out_value m ρ c), (h c).2⟩) (run_out m ρ)

end Cert.Fused

end
-- ==== Proof.RefValue.lean ====
import proofs.«126455_j4011499454859_1_alg».proof.Proof.Gen.ReferenceIdeal.Read
import proofs.«126455_j4011499454859_1_alg».proof.Proof.Norms

noncomputable section

open scoped BigOperators

namespace Cert.RefValue

open Idealize.ShloMosaic Idealize.ShloMosaic.ValueIdx Cert.ReferenceIdeal Cert.ReferenceIdeal.Read

/-! ## The norm vectors: max(1, degree)^(-1/2) at a node -/

/-- The in-norm vector at node n is the norm of the destination column. -/
theorem v9_at (x3 : (⟨S1600000, .i32⟩ : BufTy).Contents (Elt Ideal)) (n : Fin 100000) :
    val_main_v9 (F := Ideal) x3 (ix1 n) = Spec.nrmAt (Spec.colOf x3) n := by
  unfold val_main_v9 val_main_v7 val_main_v8 val_main_call0_v1 val_main_call0_v0 val_main_cst_2 val_main_v3
    val_main_v1 val_main_v2 val_main_v0 val_main_cst_0 val_main_cst val_main_cst_3
  exact Norms.norm_term_apply _ rfl rfl rfl rfl _ _ _ x3 n

/-- The out-norm vector at node n is the norm of the source column. -/
theorem v12_at (x2 : (⟨S1600000, .i32⟩ : BufTy).Contents (Elt Ideal)) (n : Fin 100000) :
    val_main_v12 (F := Ideal) x2 (ix1 n) = Spec.nrmAt (Spec.colOf x2) n := by
  unfold val_main_v12 val_main_v10 val_main_v11 val_main_call1_v1 val_main_call1_v0 val_main_cst_4 val_main_v6
    val_main_v4 val_main_v5 val_main_v0 val_main_cst_1 val_main_cst val_main_cst_5
  exact Norms.norm_term_apply _ rfl rfl rfl rfl _ _ _ x2 n

/-- A norm vector broadcast along the rows: entry (n, j) is the vector's entry n. -/
theorem v15_at (x3 : (⟨S1600000, .i32⟩ : BufTy).Contents (Elt Ideal)) (n : Fin 100000) (j : Fin 64) :
    val_main_v15 (F := Ideal) x3 (ix2 n j) = Spec.nrmAt (Spec.colOf x3) n := by
  rw [val_main_v15_apply, val_main_v14_apply]
  have h : idx_main_v14 (idx_main_v15 (ix2 n j)) = ix1 n :=
    funext fun a => Fin.ext (by match a with | ⟨0, _⟩ => rfl)
  rw [h, v9_at]

theorem v28_at (x3 : (⟨S1600000, .i32⟩ : BufTy).Contents (Elt Ideal)) (n : Fin 100000) (j : Fin 64) :
    val_main_v28 (F := Ideal) x3 (ix2 n j) = Spec.nrmAt (Spec.colOf x3) n := by
  rw [val_main_v28_apply, val_main_v27_apply]
  have h : idx_main_v27 (idx_main_v28 (ix2 n j)) = ix1 n :=
    funext fun a => Fin.ext (by match a with | ⟨0, _⟩ => rfl)
  rw [h, v9_at]

theorem v45_at (x3 : (⟨S1600000, .i32⟩ : BufTy).Contents (Elt Ideal)) (n : Fin 100000) (j : Fin 64) :
    val_main_v45 (F := Ideal) x3 (ix2 n j) = Spec.nrmAt (Spec.colOf x3) n := by
  rw [val_main_v45_apply, val_main_v44_apply]
  have h : idx_main_v44 (idx_main_v45 (ix2 n j)) = ix1 n :=
    funext fun a => Fin.ext (by match a with | ⟨0, _⟩ => rfl)
  rw [h, v9_at]

theorem v32_at (x2 : (⟨S1600000, .i32⟩ : BufTy).Contents (Elt Ideal)) (n : Fin 100000) (j : Fin 64) :
    val_main_v32 (F := Ideal) x2 (ix2 n j) = Spec.nrmAt (Spec.colOf x2) n := by
  rw [val_main_v32_apply, val_main_v31_apply]
  have h : idx_main_v31 (idx_main_v32 (ix2 n j)) = ix1 n :=
    funext fun a => Fin.ext (by match a with | ⟨0, _⟩ => rfl)
  rw [h, v12_at]

/-! ## The index columns -/

/-- The broadcast zero word is the constant zero vector. -/
theorem v17_eq : val_main_v17 (F := Ideal) = constantI Spec.Se 32 0#32 :=
  funext fun i => by rw [val_main_v17_apply]; rfl

theorem v19_eq : val_main_v19 (F := Ideal) = constantI Spec.Se 32 100000#32 :=
  funext fun i => by rw [val_main_v19_apply]; rfl

theorem v34_eq : val_main_v34 (F := Ideal) = constantI Spec.Se 32 0#32 :=
  funext fun i => by rw [val_main_v34_apply]; rfl

theorem v36_eq : val_main_v36 (F := Ideal) = constantI Spec.Se 32 100000#32 :=
  funext fun i => by rw [val_main_v36_apply]; rfl

/-- The source words with the negative ones shifted by the table's height. -/
theorem v21_eq (x2 : (⟨S1600000, .i32⟩ : BufTy).Contents (Elt Ideal)) : val_main_v21 (F := Ideal) x2 = Spec.wrapOf x2 := by
  unfold val_main_v21 val_main_v18 val_main_v20 Spec.wrapOf
  rw [v17_eq, v19_eq]

theorem v38_eq (x2 : (⟨S1600000, .i32⟩ : BufTy).Contents (Elt Ideal)) : val_main_v38 (F := Ideal) x2 = Spec.wrapOf x2 := by
  unfold val_main_v38 val_main_v35 val_main_v37 Spec.wrapOf
  rw [v34_eq, v36_eq]

/-- The wrapped source words as a column: the start indices of the residual path's row gather. -/
theorem v22_eq (x2 : (⟨S1600000, .i32⟩ : BufTy).Contents (Elt Ideal)) : val_main_v22 (F := Ideal) x2 = Spec.colOf (Spec.wrapOf x2) := by
  unfold val_main_v22
  rw [v21_eq]
  exact Norms.bcast_col _ _

/-- The same column for the convolution path's row gather. -/
theorem v39_eq (x2 : (⟨S1600000, .i32⟩ : BufTy).Contents (Elt Ideal)) : val_main_v39 (F := Ideal) x2 = Spec.colOf (Spec.wrapOf x2) := by
  unfold val_main_v39
  rw [v38_eq]
  exact Norms.bcast_col _ _

/-- The destination words as a column: the start indices of the two row scatter-adds. -/
theorem v25_eq (x3 : (⟨S1600000, .i32⟩ : BufTy).Contents (Elt Ideal)) : val_main_v25 (F := Ideal) x3 = Spec.colOf x3 := by
  unfold val_main_v25
  exact Norms.bcast_col _ _

theorem v42_eq (x3 : (⟨S1600000, .i32⟩ : BufTy).Contents (Elt Ideal)) : val_main_v42 (F := Ideal) x3 = Spec.colOf x3 := by
  unfold val_main_v42
  exact Norms.bcast_col _ _

/-! ## The projections and the scaled tables -/

/-- Entry (r, j) of features x first weights. -/
theorem v13_at (x0 : (⟨S100000x128, .f32⟩ : BufTy).Contents (Elt Ideal)) (x4 : (⟨S128x64, .f32⟩ : BufTy).Contents (Elt Ideal)) (r : Fin 100000) (j : Fin 64) :
    val_main_v13 (F := Ideal) x0 x4 (ix2 r j) = Spec.proj x0 x4 r j := by
  rw [val_main_v13_apply]
  unfold Spec.proj
  refine Finset.sum_congr rfl fun k _ => ?_
  have hl : lidx_main_v13 (ix2 r j) k = ix2 r k :=
    funext fun a => Fin.ext (by match a with | ⟨0, _⟩ => rfl | ⟨1, _⟩ => rfl)
  have hr : ridx_main_v13 (ix2 r j) k = ix2 k j :=
    funext fun a => Fin.ext (by match a with | ⟨0, _⟩ => rfl | ⟨1, _⟩ => rfl)
  rw [hl, hr]

/-- Entry (r, j) of features x second weights. -/
theorem v30_at (x0 : (⟨S100000x128, .f32⟩ : BufTy).Contents (Elt Ideal)) (x5 : (⟨S128x64, .f32⟩ : BufTy).Contents (Elt Ideal)) (r : Fin 100000) (j : Fin 64) :
    val_main_v30 (F := Ideal) x0 x5 (ix2 r j) = Spec.proj x0 x5 r j := by
  rw [val_main_v30_apply]
  unfold Spec.proj
  refine Finset.sum_congr rfl fun k _ => ?_
  have hl : lidx_main_v30 (ix2 r j) k = ix2 r k :=
    funext fun a => Fin.ext (by match a with | ⟨0, _⟩ => rfl | ⟨1, _⟩ => rfl)
  have hr : ridx_main_v30 (ix2 r j) k = ix2 k j :=
    funext fun a => Fin.ext (by match a with | ⟨0, _⟩ => rfl | ⟨1, _⟩ => rfl)
  rw [hl, hr]

/-- The residual path's table: first projection times the row's in-norm. -/
theorem v16_at (x0 : (⟨S100000x128, .f32⟩ : BufTy).Contents (Elt Ideal)) (x3 : (⟨S1600000, .i32⟩ : BufTy).Contents (Elt Ideal)) (x4 : (⟨S128x64, .f32⟩ : BufTy).Contents (Elt Ideal)) (r : Fin 100000) (j : Fin 64) :
    val_main_v16 (F := Ideal) x0 x3 x4 (ix2 r j) = Spec.proj x0 x4 r j * Spec.nrmAt (Spec.colOf x3) r := by
  rw [val_main_v16_apply, Ideal.mulf_def, v13_at, v15_at]

/-- The convolution path's table: second projection times the row's out-norm. -/
theorem v33_at (x0 : (⟨S100000x128, .f32⟩ : BufTy).Contents (Elt Ideal)) (x2 : (⟨S1600000, .i32⟩ : BufTy).Contents (Elt Ideal)) (x5 : (⟨S128x64, .f32⟩ : BufTy).Contents (Elt Ideal)) (r : Fin 100000) (j : Fin 64) :
    val_main_v33 (F := Ideal) x0 x2 x5 (ix2 r j) = Spec.proj x0 x5 r j * Spec.nrmAt (Spec.colOf x2) r := by
  rw [val_main_v33_apply, Ideal.mulf_def, v30_at, v32_at]

/-! ## The row gathers and the row scatter-adds -/

/-- The residual path's gathered row for edge e is the table's row the edge reads. -/
theorem v23_at (x0 : (⟨S100000x128, .f32⟩ : BufTy).Contents (Elt Ideal)) (x2 x3 : (⟨S1600000, .i32⟩ : BufTy).Contents (Elt Ideal)) (x4 : (⟨S128x64, .f32⟩ : BufTy).Contents (Elt Ideal)) (e : Fin 1600000) (j : Fin 64) :
    val_main_v23 (F := Ideal) x0 x2 x3 x4 (ix2 e j)
      = val_main_v16 (F := Ideal) x0 x3 x4 (ix2 (Spec.rowOf (Spec.colOf (Spec.wrapOf x2)) e) j) := by
  unfold val_main_v23
  rw [v22_eq]
  exact LibSG.gather_row_apply (by decide) _ rfl rfl rfl rfl rfl rfl rfl _ _ e j

/-- The convolution path's gathered row for edge e is the table's row the edge reads. -/
theorem v40_at (x0 : (⟨S100000x128, .f32⟩ : BufTy).Contents (Elt Ideal)) (x2 : (⟨S1600000, .i32⟩ : BufTy).Contents (Elt Ideal)) (x5 : (⟨S128x64, .f32⟩ : BufTy).Contents (Elt Ideal)) (e : Fin 1600000) (j : Fin 64) :
    val_main_v40 (F := Ideal) x0 x2 x5 (ix2 e j)
      = val_main_v33 (F := Ideal) x0 x2 x5 (ix2 (Spec.rowOf (Spec.colOf (Spec.wrapOf x2)) e) j) := by
  unfold val_main_v40
  rw [v39_eq]
  exact LibSG.gather_row_apply (by decide) _ rfl rfl rfl rfl rfl rfl rfl _ _ e j

/-- The zero operand of a scatter-add. -/
theorem v24_at (i : S100000x64.Idx) : val_main_v24 (F := Ideal) i = (0 : EReal) := by
  rw [val_main_v24_apply, val_main_cst_7_apply]
  exact Ideal.ofBits_zero_f32

theorem v41_at (i : S100000x64.Idx) : val_main_v41 (F := Ideal) i = (0 : EReal) := by
  rw [val_main_v41_apply, val_main_cst_10_apply]
  exact Ideal.ofBits_zero_f32

/-- The residual path's sum at (n, j). -/
theorem v26_at (x0 : (⟨S100000x128, .f32⟩ : BufTy).Contents (Elt Ideal)) (x2 x3 : (⟨S1600000, .i32⟩ : BufTy).Contents (Elt Ideal)) (x4 : (⟨S128x64, .f32⟩ : BufTy).Contents (Elt Ideal)) (n : Fin 100000) (j : Fin 64) :
    val_main_v26 (F := Ideal) x0 x2 x3 x4 (ix2 n j)
      = Spec.aggR x0 (Spec.colOf (Spec.wrapOf x2)) (Spec.colOf x3) x4 n j := by
  unfold val_main_v26
  rw [v25_eq, LibSG.scatterAdd_row_apply _ rfl rfl rfl rfl, v24_at, zero_add]
  unfold Spec.aggR Spec.agg
  refine Finset.sum_congr rfl fun e _ => ?_
  rw [v23_at, v16_at]

/-- The convolution path's sum at (n, j). -/
theorem v43_at (x0 : (⟨S100000x128, .f32⟩ : BufTy).Contents (Elt Ideal)) (x2 x3 : (⟨S1600000, .i32⟩ : BufTy).Contents (Elt Ideal)) (x5 : (⟨S128x64, .f32⟩ : BufTy).Contents (Elt Ideal)) (n : Fin 100000) (j : Fin 64) :
    val_main_v43 (F := Ideal) x0 x2 x3 x5 (ix2 n j)
      = Spec.aggH x0 (Spec.colOf (Spec.wrapOf x2)) (Spec.colOf x2) (Spec.colOf x3) x5 n j := by
  unfold val_main_v43
  rw [v42_eq, LibSG.scatterAdd_row_apply _ rfl rfl rfl rfl, v41_at, zero_add]
  unfold Spec.aggH Spec.agg
  refine Finset.sum_congr rfl fun e _ => ?_
  rw [v40_at, v33_at]

/-! ## The closing steps -/

/-- The bias row broadcast down the columns: entry (n, j) is the bias's entry j. -/
theorem v48_at (x6 : (⟨S64, .f32⟩ : BufTy).Contents (Elt Ideal)) (n : Fin 100000) (j : Fin 64) :
    val_main_v48 (F := Ideal) x6 (ix2 n j) = x6 (ix1 j) := by
  rw [val_main_v48_apply, val_main_v47_apply]
  have h : idx_main_v47 (idx_main_v48 (ix2 n j)) = ix1 j :=
    funext fun a => Fin.ext (by match a with | ⟨0, _⟩ => rfl)
  rw [h]

/-- The zero the positive part is taken against. -/
theorem call2_v0_at (i : S100000x64.Idx) : val_main_call2_v0 (F := Ideal) i = (0 : EReal) := by
  rw [val_main_call2_v0_apply, val_main_call2_cst_apply]
  exact Ideal.ofBits_zero_f32

/-- The reference's result at (n, j) is the separated arrangement there. -/
theorem v51_at (x0 : (⟨S100000x128, .f32⟩ : BufTy).Contents (Elt Ideal)) (x2 x3 : (⟨S1600000, .i32⟩ : BufTy).Contents (Elt Ideal)) (x4 x5 : (⟨S128x64, .f32⟩ : BufTy).Contents (Elt Ideal)) (x6 : (⟨S64, .f32⟩ : BufTy).Contents (Elt Ideal)) (n : Fin 100000) (j : Fin 64) :
    val_main_v51 (F := Ideal) x0 x2 x3 x4 x5 x6 (ix2 n j)
      = Spec.refAt x0 (Spec.colOf (Spec.wrapOf x2)) (Spec.colOf x2) (Spec.colOf x3) x4 x5 x6 n j := by
  rw [val_main_v51_apply, Ideal.maximumf_def, call2_v0_at, val_main_v50_apply, Ideal.addf_def,
    val_main_v49_apply, Ideal.addf_def, val_main_v46_apply, Ideal.mulf_def, v43_at, v45_at, v48_at,
    val_main_v29_apply, Ideal.mulf_def, v26_at, v28_at]
  rfl

/-- The reference's result, as a function of its arguments, is the separated arrangement. -/
theorem ref_value (x0 : (⟨S100000x128, .f32⟩ : BufTy).Contents (Elt Ideal)) (x2 x3 : (⟨S1600000, .i32⟩ : BufTy).Contents (Elt Ideal))
    (x4 x5 : (⟨S128x64, .f32⟩ : BufTy).Contents (Elt Ideal)) (x6 : (⟨S64, .f32⟩ : BufTy).Contents (Elt Ideal)) :
    val_main_v51 (F := Ideal) x0 x2 x3 x4 x5 x6
      = Spec.refOut x0 (Spec.colOf (Spec.wrapOf x2)) (Spec.colOf x2) (Spec.colOf x3) x4 x5 x6 := by
  funext i
  obtain ⟨n, j, rfl⟩ : ∃ (n : Fin 100000) (j : Fin 64), i = ix2 n j := ⟨i 0, i 1, eq_ix2 i⟩
  exact v51_at x0 x2 x3 x4 x5 x6 n j

end Cert.RefValue

end
-- ==== Proof.lean ====
/-
  A degree-normalised graph convolution with a residual path, fused into two tiled kernels, against its plain reference.

  The reference (the separated arrangement) projects the 100000 x 128 node features by two 128 x 64 matrices, scales the first
  projection by the in-norm and the second by the out-norm of the sending node (norm = max(1, degree)^(-1/2), the degrees
  counted from the 1600000 edges' destination and source words), gathers each along the edges' source words, sums into the
  destination nodes, scales both sums by the receiving node's in-norm, adds the bias to the second, adds the two and takes
  the positive part.

  The kernel (the fused arrangement) puts the two weight matrices side by side and the two norms side by side; its first
  region, twenty blocks of 5000 rows, multiplies each feature block by the 128 x 128 weights and scales columns below 64
  by the in-norm and the others by the out-norm; the host gathers and sums the 128-wide rows once; its second region, block
  by block, adds the two halves of a row, multiplies by the in-norm, adds the bias and takes the positive part.

  Over the extended reals both are one function of the arguments: a norm is a non-negative real, and a non-negative real
  distributes over any sum of extended reals, so scaling the sum of the two halves is scaling each; the rest is
  commutativity and associativity of the sum.  No argument need be finite for this.

  The three frames: the two kernels' are the generated frame certificates; the reference's is its generated run with the
  result dropped.  The kernel's idealization rewrote nothing, so it is the program's own text read over the extended reals.
-/
import proofs.«126455_j4011499454859_1_alg».proof.Defs
import proofs.«126455_j4011499454859_1_alg».proof.Proof.Gen.Kernel
import proofs.«126455_j4011499454859_1_alg».proof.Proof.Gen.Kernel.Skeleton
import proofs.«126455_j4011499454859_1_alg».proof.Proof.Gen.Kernel.Launch
import proofs.«126455_j4011499454859_1_alg».proof.Proof.Gen.Kernel.Points
import proofs.«126455_j4011499454859_1_alg».proof.Proof.Gen.Kernel.Frame
import proofs.«126455_j4011499454859_1_alg».proof.Proof.Gen.KernelIdeal
import proofs.«126455_j4011499454859_1_alg».proof.Proof.Gen.KernelIdeal.Skeleton
import proofs.«126455_j4011499454859_1_alg».proof.Proof.Gen.KernelIdeal.Launch
import proofs.«126455_j4011499454859_1_alg».proof.Proof.Gen.KernelIdeal.Points
import proofs.«126455_j4011499454859_1_alg».proof.Proof.Gen.KernelIdeal.Frame
import proofs.«126455_j4011499454859_1_alg».proof.Proof.Gen.ReferenceIdeal
import proofs.«126455_j4011499454859_1_alg».proof.Proof.Gen.Pre_finite_inputs
import proofs.«126455_j4011499454859_1_alg».proof.Proof.Gen.ReferenceIdeal.Run
import proofs.«126455_j4011499454859_1_alg».proof.Proof.Gen.ReferenceIdeal.Read
import proofs.«126455_j4011499454859_1_alg».proof.Proof.KernelValue
import proofs.«126455_j4011499454859_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_k : Cert.frame_Kernel := fun m ρ _ => Cert.Kernel.Gen.frame m ρ

/-- The idealized kernel runs and keeps its arguments. -/
theorem frame_ki : Cert.frame_KernelIdeal := fun m ρ _ => Cert.KernelIdeal.Gen.frame m ρ

/-- The idealized reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Over the extended reals the kernel's result is the fused arrangement of its arguments and the reference's the separated
    arrangement of arguments that agree with them: one function. -/
theorem algebraic : Cert.algebraic_KernelIdeal_ReferenceIdeal := by
  intro m ρ m' ρ' _ hagree
  refine ⟨fun c => Cert.Fused.specOf m c, Cert.Fused.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v51_eq, Cert.RefValue.ref_value, Cert.Spec.refOut_eq_specOut,
    (hagree c).1, (hagree c).2.2.1, (hagree c).2.2.2.1, (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
